-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S8x325x32 .f32 .bf16
  ∧ IdealRules.truncf_extf.Statement Cert.KernelIdeal.S8x325x32 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x12x325x32 : Shape := ⟨5, ![4, 8, 12, 325, 32]⟩
abbrev S325x1 : Shape := ⟨2, ![325, 1]⟩
abbrev S_ : Shape := ⟨0, ![]⟩

class Facts : Prop where
  bcast_S_S4x8x12x325x32 : S_.BroadcastsInDim S4x8x12x325x32 (![] : Fin 0 → Fin S4x8x12x325x32.rank)
  reducesTo_S4x8x12x325x32_S_d0_1_2_3_4 : S4x8x12x325x32.ReducesTo [0, 1, 2, 3, 4] S_
  h_S_ : 0 < S_.numel
  bcast_S_S325x1 : S_.BroadcastsInDim S325x1 (![] : Fin 0 → Fin S325x1.rank)
  reducesTo_S325x1_S_d0_1 : S325x1.ReducesTo [0, 1] S_

variable [Facts]

def fn_part2 {F : FTy → Type} [FloatOps F] (main_arg7 : FVec F S325x1 .f32) (main_v33 : IVec S_ 1) : IVec S_ 1 :=
  let main_v34 : FVec F S325x1 .f32 := Host.absf main_arg7
  let main_cst_12 : FVec F S_ .f32 := constant S_ .f32 0x7F800000#32
  let main_v35 : FVec F S325x1 .f32 := broadcastInDim S325x1 ![] bcast_S_S325x1 main_cst_12
  let main_v36 : IVec S325x1 1 := cmpf .olt main_v34 main_v35
  let main_c_13 : IVec S_ 1 := constantI S_ 1 1#1
  let main_v37 : IVec S_ 1 := (fun x v => Host.reduce IntOp.andi x v reducesTo_S325x1_S_d0_1 h_S_) main_v36 main_c_13
  let main_v38 : IVec S_ 1 := andi main_v33 main_v37
  let main_cst_14 : FVec F S_ .f32 := constant S_ .f32 0x3727C5AC#32
  let main_v39 : FVec F S325x1 .f32 := broadcastInDim S325x1 ![] bcast_S_S325x1 main_cst_14
  let main_v40 : FVec F S325x1 .f32 := addf main_arg7 main_v39
  let main_cst_15 : FVec F S_ .f32 := constant S_ .f32 0x00000000#32
  let main_v41 : FVec F S325x1 .f32 := broadcastInDim S325x1 ![] bcast_S_S325x1 main_cst_15
  let main_v42 : IVec S325x1 1 := cmpf .une main_v40 main_v41
  let main_c_16 : IVec S_ 1 := constantI S_ 1 1#1
  let main_v43 : IVec S_ 1 := (fun x v => Host.reduce IntOp.andi x v reducesTo_S325x1_S_d0_1 h_S_) main_v42 main_c_16
  let main_v44 : IVec S_ 1 := andi main_v38 main_v43
  main_v44

def fn_part1 {F : FTy → Type} [FloatOps F] (main_arg4 : FVec F S4x8x12x325x32 .f32) (main_arg5 : FVec F S4x8x12x325x32 .f32) (main_arg6 : FVec F S325x1 .f32) (main_arg7 : FVec F S325x1 .f32) (main_v13 : IVec S_ 1) (main_v16 : IVec S4x8x12x325x32 1) : IVec S_ 1 :=
  let main_c_5 : IVec S_ 1 := constantI S_ 1 1#1
  let main_v17 : IVec S_ 1 := (fun x v => Host.reduce IntOp.andi x v reducesTo_S4x8x12x325x32_S_d0_1_2_3_4 h_S_) main_v16 main_c_5
  let main_v18 : IVec S_ 1 := andi main_v13 main_v17
  let main_v19 : FVec F S4x8x12x325x32 .f32 := Host.absf main_arg4
  let main_cst_6 : FVec F S_ .f32 := constant S_ .f32 0x7F800000#32
  let main_v20 : FVec F S4x8x12x325x32 .f32 := broadcastInDim S4x8x12x325x32 ![] bcast_S_S4x8x12x325x32 main_cst_6
  let main_v21 : IVec S4x8x12x325x32 1 := cmpf .olt main_v19 main_v20
  let main_c_7 : IVec S_ 1 := constantI S_ 1 1#1
  let main_v22 : IVec S_ 1 := (fun x v => Host.reduce IntOp.andi x v reducesTo_S4x8x12x325x32_S_d0_1_2_3_4 h_S_) main_v21 main_c_7
  let main_v23 : IVec S_ 1 := andi main_v18 main_v22
  let main_v24 : FVec F S4x8x12x325x32 .f32 := Host.absf main_arg5
  let main_cst_8 : FVec F S_ .f32 := constant S_ .f32 0x7F800000#32
  let main_v25 : FVec F S4x8x12x325x32 .f32 := broadcastInDim S4x8x12x325x32 ![] bcast_S_S4x8x12x325x32 main_cst_8
  let main_v26 : IVec S4x8x12x325x32 1 := cmpf .olt main_v24 main_v25
  let main_c_9 : IVec S_ 1 := constantI S_ 1 1#1
  let main_v27 : IVec S_ 1 := (fun x v => Host.reduce IntOp.andi x v reducesTo_S4x8x12x325x32_S_d0_1_2_3_4 h_S_) main_v26 main_c_9
  let main_v28 : IVec S_ 1 := andi main_v23 main_v27
  let main_v29 : FVec F S325x1 .f32 := Host.absf main_arg6
  let main_cst_10 : FVec F S_ .f32 := constant S_ .f32 0x7F800000#32
  let main_v30 : FVec F S325x1 .f32 := broadcastInDim S325x1 ![] bcast_S_S325x1 main_cst_10
  let main_v31 : IVec S325x1 1 := cmpf .olt main_v29 main_v30
  let main_c_11 : IVec S_ 1 := constantI S_ 1 1#1
  let main_v32 : IVec S_ 1 := (fun x v => Host.reduce IntOp.andi x v reducesTo_S325x1_S_d0_1 h_S_) main_v31 main_c_11
  let main_v33 : IVec S_ 1 := andi main_v28 main_v32
  fn_part2 (F := F) main_arg7 main_v33

def fn {F : FTy → Type} [FloatOps F] (main_arg0 : FVec F S4x8x12x325x32 .f32) (main_arg1 : FVec F S4x8x12x325x32 .f32) (main_arg2 : FVec F S4x8x12x325x32 .f32) (main_arg3 : FVec F S4x8x12x325x32 .f32) (main_arg4 : FVec F S4x8x12x325x32 .f32) (main_arg5 : FVec F S4x8x12x325x32 .f32) (main_arg6 : FVec F S325x1 .f32) (main_arg7 : FVec F S325x1 .f32) : IVec S_ 1 :=
  let main_v0 : FVec F S4x8x12x325x32 .f32 := Host.absf main_arg0
  let main_cst : FVec F S_ .f32 := constant S_ .f32 0x7F800000#32
  let main_v1 : FVec F S4x8x12x325x32 .f32 := broadcastInDim S4x8x12x325x32 ![] bcast_S_S4x8x12x325x32 main_cst
  let main_v2 : IVec S4x8x12x325x32 1 := cmpf .olt main_v0 main_v1
  let main_c : IVec S_ 1 := constantI S_ 1 1#1
  let main_v3 : IVec S_ 1 := (fun x v => Host.reduce IntOp.andi x v reducesTo_S4x8x12x325x32_S_d0_1_2_3_4 h_S_) main_v2 main_c
  let main_v4 : FVec F S4x8x12x325x32 .f32 := Host.absf main_arg1
  let main_cst_0 : FVec F S_ .f32 := constant S_ .f32 0x7F800000#32
  let main_v5 : FVec F S4x8x12x325x32 .f32 := broadcastInDim S4x8x12x325x32 ![] bcast_S_S4x8x12x325x32 main_cst_0
  let main_v6 : IVec S4x8x12x325x32 1 := cmpf .olt main_v4 main_v5
  let main_c_1 : IVec S_ 1 := constantI S_ 1 1#1
  let main_v7 : IVec S_ 1 := (fun x v => Host.reduce IntOp.andi x v reducesTo_S4x8x12x325x32_S_d0_1_2_3_4 h_S_) main_v6 main_c_1
  let main_v8 : IVec S_ 1 := andi main_v3 main_v7
  let main_v9 : FVec F S4x8x12x325x32 .f32 := Host.absf main_arg2
  let main_cst_2 : FVec F S_ .f32 := constant S_ .f32 0x7F800000#32
  let main_v10 : FVec F S4x8x12x325x32 .f32 := broadcastInDim S4x8x12x325x32 ![] bcast_S_S4x8x12x325x32 main_cst_2
  let main_v11 : IVec S4x8x12x325x32 1 := cmpf .olt main_v9 main_v10
  let main_c_3 : IVec S_ 1 := constantI S_ 1 1#1
  let main_v12 : IVec S_ 1 := (fun x v => Host.reduce IntOp.andi x v reducesTo_S4x8x12x325x32_S_d0_1_2_3_4 h_S_) main_v11 main_c_3
  let main_v13 : IVec S_ 1 := andi main_v8 main_v12
  let main_v14 : FVec F S4x8x12x325x32 .f32 := Host.absf main_arg3
  let main_cst_4 : FVec F S_ .f32 := constant S_ .f32 0x7F800000#32
  let main_v15 : FVec F S4x8x12x325x32 .f32 := broadcastInDim S4x8x12x325x32 ![] bcast_S_S4x8x12x325x32 main_cst_4
  let main_v16 : IVec S4x8x12x325x32 1 := cmpf .olt main_v14 main_v15
  fn_part1 (F := F) main_arg4 main_arg5 main_arg6 main_arg7 main_v13 main_v16
-- ==== Kernel.lean ====
abbrev S4x8x12x325x32 : Shape := ⟨5, ![4, 8, 12, 325, 32]⟩
abbrev S325x1 : Shape := ⟨2, ![325, 1]⟩
abbrev S384x325x32 : Shape := ⟨3, ![384, 325, 32]⟩
abbrev S8x325x32 : Shape := ⟨3, ![8, 325, 32]⟩
abbrev S1x325x1 : Shape := ⟨3, ![1, 325, 1]⟩
abbrev S8x325x325 : Shape := ⟨3, ![8, 325, 325]⟩
abbrev S8x325 : Shape := ⟨2, ![8, 325]⟩
abbrev S8x325x1 : Shape := ⟨3, ![8, 325, 1]⟩

abbrev nBuf : Space → Nat
  | .hbm => 22
  | .vmem => 22
  | .smem => 0
  | _ => 0

abbrev bufTy : (tb : Table) → Fin (tcTables nBuf tb) → BufTy
  | .hbm, ⟨0, _⟩ => ⟨S4x8x12x325x32, .f32⟩
  | .hbm, ⟨1, _⟩ => ⟨S4x8x12x325x32, .f32⟩
  | .hbm, ⟨2, _⟩ => ⟨S4x8x12x325x32, .f32⟩
  | .hbm, ⟨3, _⟩ => ⟨S4x8x12x325x32, .f32⟩
  | .hbm, ⟨4, _⟩ => ⟨S4x8x12x325x32, .f32⟩
  | .hbm, ⟨5, _⟩ => ⟨S4x8x12x325x32, .f32⟩
  | .hbm, ⟨6, _⟩ => ⟨S325x1, .f32⟩
  | .hbm, ⟨7, _⟩ => ⟨S325x1, .f32⟩
  | .hbm, ⟨8, _⟩ => ⟨S384x325x32, .f32⟩
  | .hbm, ⟨9, _⟩ => ⟨S384x325x32, .f32⟩
  | .hbm, ⟨10, _⟩ => ⟨S384x325x32, .f32⟩
  | .hbm, ⟨11, _⟩ => ⟨S384x325x32, .f32⟩
  | .hbm, ⟨12, _⟩ => ⟨S384x325x32, .f32⟩
  | .hbm, ⟨13, _⟩ => ⟨S384x325x32, .f32⟩
  | .hbm, ⟨14, _⟩ => ⟨S384x325x32, .f32⟩
  | .hbm, ⟨15, _⟩ => ⟨S384x325x32, .f32⟩
  | .hbm, ⟨16, _⟩ => ⟨S384x325x32, .f32⟩
  | .hbm, ⟨17, _⟩ => ⟨S384x325x32, .f32⟩
  | .hbm, ⟨18, _⟩ => ⟨S4x8x12x325x32, .f32⟩
  | .hbm, ⟨19, _⟩ => ⟨S4x8x12x325x32, .f32⟩
  | .hbm, ⟨20, _⟩ => ⟨S4x8x12x325x32, .f32⟩
  | .hbm, ⟨21, _⟩ => ⟨S4x8x12x325x32, .f32⟩
  | .local _ .vmem, ⟨0, _⟩ => ⟨S8x325x32, .f32⟩
  | .local _ .vmem, ⟨1, _⟩ => ⟨S8x325x32, .f32⟩
  | .local _ .vmem, ⟨2, _⟩ => ⟨S8x325x32, .f32⟩
  | .local _ .vmem, ⟨3, _⟩ => ⟨S8x325x32, .f32⟩
  | .local _ .vmem, ⟨4, _⟩ => ⟨S8x325x32, .f32⟩
  | .local _ .vmem, ⟨5, _⟩ => ⟨S8x325x32, .f32⟩
  | .local _ .vmem, ⟨6, _⟩ => ⟨S8x325x32, .f32⟩
  | .local _ .vmem, ⟨7, _⟩ => ⟨S8x325x32, .f32⟩
  | .local _ .vmem, ⟨8, _⟩ => ⟨S8x325x32, .f32⟩
  | .local _ .vmem, ⟨9, _⟩ => ⟨S8x325x32, .f32⟩
  | .local _ .vmem, ⟨10, _⟩ => ⟨S8x325x32, .f32⟩
  | .local _ .vmem, ⟨11, _⟩ => ⟨S8x325x32, .f32⟩
  | .local _ .vmem, ⟨12, _⟩ => ⟨S325x1, .f32⟩
  | .local _ .vmem, ⟨13, _⟩ => ⟨S325x1, .f32⟩
  | .local _ .vmem, ⟨14, _⟩ => ⟨S8x325x32, .f32⟩
  | .local _ .vmem, ⟨15, _⟩ => ⟨S8x325x32, .f32⟩
  | .local _ .vmem, ⟨16, _⟩ => ⟨S8x325x32, .f32⟩
  | .local _ .vmem, ⟨17, _⟩ => ⟨S8x325x32, .f32⟩
  | .local _ .vmem, ⟨18, _⟩ => ⟨S8x325x32, .f32⟩
  | .local _ .vmem, ⟨19, _⟩ => ⟨S8x325x32, .f32⟩
  | .local _ .vmem, ⟨20, _⟩ => ⟨S8x325x32, .f32⟩
  | .local _ .vmem, ⟨21, _⟩ => ⟨S8x325x32, .f32⟩
  | _, _ => ⟨S4x8x12x325x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x325x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x325x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x325x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x325x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x325x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x325x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S325x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S325x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x325x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x325x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x325x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x325x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4x8x12x325x32_S384x325x32 : S4x8x12x325x32.ShapeCasts S384x325x32
  inb_S8x325x32_S8x325x32_0_0_0 : ∀ a, (![0, 0, 0] : Fin 3 → Nat) a + S8x325x32.size a ≤ S8x325x32.size a
  h_S8x325x32 : 0 < S8x325x32.numel
  shapeCasts_S8x325x32_S8x325x32 : S8x325x32.ShapeCasts S8x325x32
  inb_S325x1_S325x1_0_0 : ∀ a, (![0, 0] : Fin 2 → Nat) a + S325x1.size a ≤ S325x1.size a
  h_S325x1 : 0 < S325x1.numel
  shapeCasts_S325x1_S1x325x1 : S325x1.ShapeCasts S1x325x1
  broadcasts_S1x325x1_S8x325x32 : S1x325x1.Broadcasts S8x325x32
  bitsLt_bf16_f32 : FTy.bits .bf16 < FTy.bits .f32
  reduces_S8x325x325_S8x325 : S8x325x325.Reduces [2] S8x325
  shapeCasts_S8x325_S8x325x1 : S8x325.ShapeCasts S8x325x1
  broadcasts_S8x325x1_S8x325x325 : S8x325x1.Broadcasts S8x325x325
  shapeCasts_S384x325x32_S4x8x12x325x32 : S384x325x32.ShapeCasts S4x8x12x325x32
  dot_S8x325x32_S8x325x32_S8x325x325_2_2_1_1_0_0_wf : DotDims.WF S8x325x32 S8x325x32 S8x325x325 [2] [2] [1] [1] [0] [0]
  dot_S8x325x325_S8x325x32_S8x325x32_2_1_1_2_0_0_wf : DotDims.WF S8x325x325 S8x325x32 S8x325x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x325x32.size a ≤ S384x325x32.size a
  hwx0_0 : ∀ i : grid0.Coords, EltTy.bits .f32 = 32 ∨ (Rect.block (s := S384x325x32) S8x325x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x325x32.size a ≤ S384x325x32.size a
  hwx0_1 : ∀ i : grid0.Coords, EltTy.bits .f32 = 32 ∨ (Rect.block (s := S384x325x32) S8x325x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x325x32.size a ≤ S384x325x32.size a
  hwx0_2 : ∀ i : grid0.Coords, EltTy.bits .f32 = 32 ∨ (Rect.block (s := S384x325x32) S8x325x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x325x32.size a ≤ S384x325x32.size a
  hwx0_3 : ∀ i : grid0.Coords, EltTy.bits .f32 = 32 ∨ (Rect.block (s := S384x325x32) S8x325x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x325x32.size a ≤ S384x325x32.size a
  hwx0_4 : ∀ i : grid0.Coords, EltTy.bits .f32 = 32 ∨ (Rect.block (s := S384x325x32) S8x325x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x325x32.size a ≤ S384x325x32.size a
  hwx0_5 : ∀ i : grid0.Coords, EltTy.bits .f32 = 32 ∨ (Rect.block (s := S384x325x32) S8x325x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S325x1.size a ≤ S325x1.size a
  hwx0_6 : ∀ i : grid0.Coords, EltTy.bits .f32 = 32 ∨ (Rect.block (s := S325x1) S325x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S325x1.size a ≤ S325x1.size a
  hwx0_7 : ∀ i : grid0.Coords, EltTy.bits .f32 = 32 ∨ (Rect.block (s := S325x1) S325x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x325x32.size a ≤ S384x325x32.size a
  hwx0_8 : ∀ i : grid0.Coords, EltTy.bits .f32 = 32 ∨ (Rect.block (s := S384x325x32) S8x325x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x325x32.size a ≤ S384x325x32.size a
  hwx0_9 : ∀ i : grid0.Coords, EltTy.bits .f32 = 32 ∨ (Rect.block (s := S384x325x32) S8x325x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x325x32.size a ≤ S384x325x32.size a
  hwx0_10 : ∀ i : grid0.Coords, EltTy.bits .f32 = 32 ∨ (Rect.block (s := S384x325x32) S8x325x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x325x32.size a ≤ S384x325x32.size a
  hwx0_11 : ∀ i : grid0.Coords, EltTy.bits .f32 = 32 ∨ (Rect.block (s := S384x325x32) S8x325x32.size (cc0_transform_11 i) (hinb0_11 i)).WholeWords (EltTy.packing .f32)

variable [Facts₀]

def dot_S8x325x32_S8x325x32_S8x325x325_2_2_1_1_0_0 : DotDims S8x325x32 S8x325x32 S8x325x325 where
  lhsContracting := [2]
  rhsContracting := [2]
  lhsNonContracting := [1]
  rhsNonContracting := [1]
  lhsBatch := [0]
  rhsBatch := [0]
  wf := dot_S8x325x32_S8x325x32_S8x325x325_2_2_1_1_0_0_wf
def dot_S8x325x325_S8x325x32_S8x325x32_2_1_1_2_0_0 : DotDims S8x325x325 S8x325x32 S8x325x32 where
  lhsContracting := [2]
  rhsContracting := [1]
  lhsNonContracting := [1]
  rhsNonContracting := [2]
  lhsBatch := [0]
  rhsBatch := [0]
  wf := dot_S8x325x325_S8x325x32_S8x325x32_2_1_1_2_0_0_wf

abbrev win0_0 : Pipeline.Window sig grid0 :=
  Pipeline.Window.ofSpec (Memref.whole main_v0) S8x325x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x325x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x325x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x325x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x325x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x325x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S325x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S325x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S8x325x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S8x325x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S8x325x32.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_3) S8x325x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x8x12x325x32 : Shape := ⟨5, ![4, 8, 12, 325, 32]⟩
abbrev S325x1 : Shape := ⟨2, ![325, 1]⟩
abbrev S_ : Shape := ⟨0, ![]⟩
abbrev S1x1x1x325x1 : Shape := ⟨5, ![1, 1, 1, 325, 1]⟩
abbrev S4x8x12x325x325 : Shape := ⟨5, ![4, 8, 12, 325, 325]⟩
abbrev S4x8x12x325 : Shape := ⟨4, ![4, 8, 12, 325]⟩
abbrev S4x8x12x325x1 : Shape := ⟨5, ![4, 8, 12, 325, 1]⟩

abbrev nBuf : Space → Nat
  | .hbm => 95
  | .vmem => 0
  | .smem => 0
  | _ => 0

abbrev bufTy : (tb : Table) → Fin (tcTables nBuf tb) → BufTy
  | .hbm, ⟨0, _⟩ => ⟨S4x8x12x325x32, .f32⟩
  | .hbm, ⟨1, _⟩ => ⟨S4x8x12x325x32, .f32⟩
  | .hbm, ⟨2, _⟩ => ⟨S4x8x12x325x32, .f32⟩
  | .hbm, ⟨3, _⟩ => ⟨S4x8x12x325x32, .f32⟩
  | .hbm, ⟨4, _⟩ => ⟨S4x8x12x325x32, .f32⟩
  | .hbm, ⟨5, _⟩ => ⟨S4x8x12x325x32, .f32⟩
  | .hbm, ⟨6, _⟩ => ⟨S325x1, .f32⟩
  | .hbm, ⟨7, _⟩ => ⟨S325x1, .f32⟩
  | .hbm, ⟨8, _⟩ => ⟨S4x8x12x325x32, .f32⟩
  | .hbm, ⟨9, _⟩ => ⟨S_, .f32⟩
  | .hbm, ⟨10, _⟩ => ⟨S325x1, .f32⟩
  | .hbm, ⟨11, _⟩ => ⟨S325x1, .f32⟩
  | .hbm, ⟨12, _⟩ => ⟨S1x1x1x325x1, .f32⟩
  | .hbm, ⟨13, _⟩ => ⟨S4x8x12x325x32, .f32⟩
  | .hbm, ⟨14, _⟩ => ⟨S4x8x12x325x32, .f32⟩
  | .hbm, ⟨15, _⟩ => ⟨S4x8x12x325x32, .f32⟩
  | .hbm, ⟨16, _⟩ => ⟨S1x1x1x325x1, .f32⟩
  | .hbm, ⟨17, _⟩ => ⟨S4x8x12x325x32, .f32⟩
  | .hbm, ⟨18, _⟩ => ⟨S4x8x12x325x32, .f32⟩
  | .hbm, ⟨19, _⟩ => ⟨S4x8x12x325x325, .f32⟩
  | .hbm, ⟨20, _⟩ => ⟨S_, .f32⟩
  | .hbm, ⟨21, _⟩ => ⟨S4x8x12x325x325, .f32⟩
  | .hbm, ⟨22, _⟩ => ⟨S4x8x12x325x325, .f32⟩
  | .hbm, ⟨23, _⟩ => ⟨S_, .f32⟩
  | .hbm, ⟨24, _⟩ => ⟨S4x8x12x325, .f32⟩
  | .hbm, ⟨25, _⟩ => ⟨S_, .f32⟩
  | .hbm, ⟨26, _⟩ => ⟨S4x8x12x325, .f32⟩
  | .hbm, ⟨27, _⟩ => ⟨S4x8x12x325, .f32⟩
  | .hbm, ⟨28, _⟩ => ⟨S4x8x12x325x1, .f32⟩
  | .hbm, ⟨29, _⟩ => ⟨S4x8x12x325x325, .f32⟩
  | .hbm, ⟨30, _⟩ => ⟨S4x8x12x325x325, .f32⟩
  | .hbm, ⟨31, _⟩ => ⟨S4x8x12x325x325, .f32⟩
  | .hbm, ⟨32, _⟩ => ⟨S_, .f32⟩
  | .hbm, ⟨33, _⟩ => ⟨S4x8x12x325, .f32⟩
  | .hbm, ⟨34, _⟩ => ⟨S4x8x12x325x1, .f32⟩
  | .hbm, ⟨35, _⟩ => ⟨S4x8x12x325x325, .f32⟩
  | .hbm, ⟨36, _⟩ => ⟨S4x8x12x325x325, .f32⟩
  | .hbm, ⟨37, _⟩ => ⟨S4x8x12x325x32, .f32⟩
  | .hbm, ⟨38, _⟩ => ⟨S4x8x12x325x325, .f32⟩
  | .hbm, ⟨39, _⟩ => ⟨S_, .f32⟩
  | .hbm, ⟨40, _⟩ => ⟨S4x8x12x325x325, .f32⟩
  | .hbm, ⟨41, _⟩ => ⟨S4x8x12x325x325, .f32⟩
  | .hbm, ⟨42, _⟩ => ⟨S_, .f32⟩
  | .hbm, ⟨43, _⟩ => ⟨S4x8x12x325, .f32⟩
  | .hbm, ⟨44, _⟩ => ⟨S_, .f32⟩
  | .hbm, ⟨45, _⟩ => ⟨S4x8x12x325, .f32⟩
  | .hbm, ⟨46, _⟩ => ⟨S4x8x12x325, .f32⟩
  | .hbm, ⟨47, _⟩ => ⟨S4x8x12x325x1, .f32⟩
  | .hbm, ⟨48, _⟩ => ⟨S4x8x12x325x325, .f32⟩
  | .hbm, ⟨49, _⟩ => ⟨S4x8x12x325x325, .f32⟩
  | .hbm, ⟨50, _⟩ => ⟨S4x8x12x325x325, .f32⟩
  | .hbm, ⟨51, _⟩ => ⟨S_, .f32⟩
  | .hbm, ⟨52, _⟩ => ⟨S4x8x12x325, .f32⟩
  | .hbm, ⟨53, _⟩ => ⟨S4x8x12x325x1, .f32⟩
  | .hbm, ⟨54, _⟩ => ⟨S4x8x12x325x325, .f32⟩
  | .hbm, ⟨55, _⟩ => ⟨S4x8x12x325x325, .f32⟩
  | .hbm, ⟨56, _⟩ => ⟨S4x8x12x325x32, .f32⟩
  | .hbm, ⟨57, _⟩ => ⟨S4x8x12x325x325, .f32⟩
  | .hbm, ⟨58, _⟩ => ⟨S_, .f32⟩
  | .hbm, ⟨59, _⟩ => ⟨S4x8x12x325x325, .f32⟩
  | .hbm, ⟨60, _⟩ => ⟨S4x8x12x325x325, .f32⟩
  | .hbm, ⟨61, _⟩ => ⟨S_, .f32⟩
  | .hbm, ⟨62, _⟩ => ⟨S4x8x12x325, .f32⟩
  | .hbm, ⟨63, _⟩ => ⟨S_, .f32⟩
  | .hbm, ⟨64, _⟩ => ⟨S4x8x12x325, .f32⟩
  | .hbm, ⟨65, _⟩ => ⟨S4x8x12x325, .f32⟩
  | .hbm, ⟨66, _⟩ => ⟨S4x8x12x325x1, .f32⟩
  | .hbm, ⟨67, _⟩ => ⟨S4x8x12x325x325, .f32⟩
  | .hbm, ⟨68, _⟩ => ⟨S4x8x12x325x325, .f32⟩
  | .hbm, ⟨69, _⟩ => ⟨S4x8x12x325x325, .f32⟩
  | .hbm, ⟨70, _⟩ => ⟨S_, .f32⟩
  | .hbm, ⟨71, _⟩ => ⟨S4x8x12x325, .f32⟩
  | .hbm, ⟨72, _⟩ => ⟨S4x8x12x325x1, .f32⟩
  | .hbm, ⟨73, _⟩ => ⟨S4x8x12x325x325, .f32⟩
  | .hbm, ⟨74, _⟩ => ⟨S4x8x12x325x325, .f32⟩
  | .hbm, ⟨75, _⟩ => ⟨S4x8x12x325x32, .f32⟩
  | .hbm, ⟨76, _⟩ => ⟨S4x8x12x325x325, .f32⟩
  | .hbm, ⟨77, _⟩ => ⟨S_, .f32⟩
  | .hbm, ⟨78, _⟩ => ⟨S4x8x12x325x325, .f32⟩
  | .hbm, ⟨79, _⟩ => ⟨S4x8x12x325x325, .f32⟩
  | .hbm, ⟨80, _⟩ => ⟨S_, .f32⟩
  | .hbm, ⟨81, _⟩ => ⟨S4x8x12x325, .f32⟩
  | .hbm, ⟨82, _⟩ => ⟨S_, .f32⟩
  | .hbm, ⟨83, _⟩ => ⟨S4x8x12x325, .f32⟩
  | .hbm, ⟨84, _⟩ => ⟨S4x8x12x325, .f32⟩
  | .hbm, ⟨85, _⟩ => ⟨S4x8x12x325x1, .f32⟩
  | .hbm, ⟨86, _⟩ => ⟨S4x8x12x325x325, .f32⟩
  | .hbm, ⟨87, _⟩ => ⟨S4x8x12x325x325, .f32⟩
  | .hbm, ⟨88, _⟩ => ⟨S4x8x12x325x325, .f32⟩
  | .hbm, ⟨89, _⟩ => ⟨S_, .f32⟩
  | .hbm, ⟨90, _⟩ => ⟨S4x8x12x325, .f32⟩
  | .hbm, ⟨91, _⟩ => ⟨S4x8x12x325x1, .f32⟩
  | .hbm, ⟨92, _⟩ => ⟨S4x8x12x325x325, .f32⟩
  | .hbm, ⟨93, _⟩ => ⟨S4x8x12x325x325, .f32⟩
  | .hbm, ⟨94, _⟩ => ⟨S4x8x12x325x32, .f32⟩
  | _, _ => ⟨S4x8x12x325x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]

class Facts₀ : Prop where
  bcast_S_S325x1 : S_.BroadcastsInDim S325x1 (![] : Fin 0 → Fin S325x1.rank)
  bcast_S325x1_S1x1x1x325x1_3_4 : S325x1.BroadcastsInDim S1x1x1x325x1 (![3, 4] : Fin 2 → Fin S1x1x1x325x1.rank)
  bcast_S1x1x1x325x1_S4x8x12x325x32_0_1_2_3_4 : S1x1x1x325x1.BroadcastsInDim S4x8x12x325x32 (![0, 1, 2, 3, 4] : Fin 5 → Fin S4x8x12x325x32.rank)
  bcast_S_S4x8x12x325x325 : S_.BroadcastsInDim S4x8x12x325x325 (![] : Fin 0 → Fin S4x8x12x325x325.rank)
  reducesTo_S4x8x12x325x325_S4x8x12x325_d4 : S4x8x12x325x325.ReducesTo [4] S4x8x12x325
  h_S_ : 0 < S_.numel
  bcast_S_S4x8x12x325 : S_.BroadcastsInDim S4x8x12x325 (![] : Fin 0 → Fin S4x8x12x325.rank)
  bcast_S4x8x12x325_S4x8x12x325x1_0_1_2_3 : S4x8x12x325.BroadcastsInDim S4x8x12x325x1 (![0, 1, 2, 3] : Fin 4 → Fin S4x8x12x325x1.rank)
  bcast_S4x8x12x325x1_S4x8x12x325x325_0_1_2_3_4 : S4x8x12x325x1.BroadcastsInDim S4x8x12x325x325 (![0, 1, 2, 3, 4] : Fin 5 → Fin S4x8x12x325x325.rank)
  dot_S4x8x12x325x32_S4x8x12x325x32_S4x8x12x325x325_4_4_3_3_012_012_wf : DotDims.WF S4x8x12x325x32 S4x8x12x325x32 S4x8x12x325x325 [4] [4] [3] [3] [0, 1, 2] [0, 1, 2]
  dot_S4x8x12x325x325_S4x8x12x325x32_S4x8x12x325x32_4_3_3_4_012_012_wf : DotDims.WF S4x8x12x325x325 S4x8x12x325x32 S4x8x12x325x32 [4] [3] [3] [4] [0, 1, 2] [0, 1, 2]

variable [Facts₀]

def dot_S4x8x12x325x32_S4x8x12x325x32_S4x8x12x325x325_4_4_3_3_012_012 : DotDims S4x8x12x325x32 S4x8x12x325x32 S4x8x12x325x325 where
  lhsContracting := [4]
  rhsContracting := [4]
  lhsNonContracting := [3]
  rhsNonContracting := [3]
  lhsBatch := [0, 1, 2]
  rhsBatch := [0, 1, 2]
  wf := dot_S4x8x12x325x32_S4x8x12x325x32_S4x8x12x325x325_4_4_3_3_012_012_wf
def dot_S4x8x12x325x325_S4x8x12x325x32_S4x8x12x325x32_4_3_3_4_012_012 : DotDims S4x8x12x325x325 S4x8x12x325x32 S4x8x12x325x32 where
  lhsContracting := [4]
  rhsContracting := [3]
  lhsNonContracting := [3]
  rhsNonContracting := [4]
  lhsBatch := [0, 1, 2]
  rhsBatch := [0, 1, 2]
  wf := dot_S4x8x12x325x325_S4x8x12x325x32_S4x8x12x325x32_4_3_3_4_012_012_wf

class Facts : Prop extends Facts₀ where

variable [Facts]
-- ==== Proof.Spec.lean ====
/-
  The value both programs compute, written once over the extended reals.

  One attention row: from a row of raw scores `s m` (m over the 325 keys) form the scaled scores `s m * c`
  (c the shared f32 word for 1/√32), subtract their maximum, exponentiate, normalise by the row's sum and
  take the weighted sum of one column of values.  A slice (one of the 384 batch entries) applies this to
  the scores `∑ e, Q n e * K m e`.  The second result uses for K the "flow" array
  `kj * (x - x*x / (vfp + ε))`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The shared scale word, 1/√32 rounded to f32: the same pattern in both programs, never evaluated. -/
def scaleC : EReal := Ideal.ofBits .f32 0x3E3504F3#32
/-- The −∞ word both maxima start from. -/
def botC : EReal := Ideal.ofBits .f32 0xFF800000#32
/-- The shared ε word (1e-5 rounded to f32) added to the free-flow speed before dividing. -/
def epsC : EReal := Ideal.ofBits .f32 0x3727C5AC#32

/-- The maximum of a row's scaled scores, folded from −∞. -/
def rowMax (s : Fin 325 → EReal) : EReal :=
  (Finset.univ : Finset (Fin 325)).fold max botC (fun m => s m * scaleC)

/-- The unnormalised softmax weight of key `m`. -/
def rowExp (s : Fin 325 → EReal) (m : Fin 325) : EReal := Ideal.exp (s m * scaleC - rowMax s)

/-- Softmax-weighted sum of the values `v` along one row of scores `s`. -/
def rowOut (s v : Fin 325 → EReal) : EReal :=
  ∑ m : Fin 325, Ideal.div (rowExp s m) (∑ m' : Fin 325, rowExp s m') * v m

/-- One batch entry's attention output at query `n`, feature `d`. -/
def slice (Q K V : Fin 325 → Fin 32 → EReal) (n : Fin 325) (d : Fin 32) : EReal :=
  rowOut (fun m => ∑ e : Fin 32, Q n e * K m e) (fun m => V m d)

/-- The flow-from-speed nonlinearity at one element. -/
def flow (kj vfp x : EReal) : EReal := kj * (x - Ideal.div (x * x) (vfp + epsC))

/-- An extended real that is a real number. -/
def IsReal (x : EReal) : Prop := ∃ r : ℝ, x = (r : EReal)

abbrev S5 : Shape := ⟨5, ![4, 8, 12, 325, 32]⟩
abbrev S2 : Shape := ⟨2, ![325, 1]⟩

/-- Attention over the five-axis arrays at explicit coordinates. -/
def attnAt (q k v : S5.Idx → EReal) (b : Fin 4) (h : Fin 8) (t : Fin 12) (n : Fin 325) (d : Fin 32) : EReal :=
  slice (fun n' e => q (ix5 b h t n' e)) (fun m e => k (ix5 b h t m e)) (fun m e => v (ix5 b h t m e)) n d

/-- Attention over the five-axis arrays as an array. -/
def attn5 (q k v : S5.Idx → EReal) : S5.Idx → EReal := fun i =>
  attnAt q k v ⟨(i 0).val, (i 0).isLt⟩ ⟨(i 1).val, (i 1).isLt⟩ ⟨(i 2).val, (i 2).isLt⟩ ⟨(i 3).val, (i 3).isLt⟩ ⟨(i 4).val, (i 4).isLt⟩

/-- The flow array: row `n` of the two column parameters applied to every element of row `n`. -/
def flow5 (kj vfp : S2.Idx → EReal) (x : S5.Idx → EReal) : S5.Idx → EReal := fun i =>
  flow (kj (ix2 ⟨(i 3).val, (i 3).isLt⟩ 0)) (vfp (ix2 ⟨(i 3).val, (i 3).isLt⟩ 0)) (x i)

theorem attn5_ix5 (q k v : S5.Idx → EReal) (b : Fin 4) (h : Fin 8) (t : Fin 12) (n : Fin 325) (d : Fin 32) :
    attn5 q k v (ix5 b h t n d) = attnAt q k v b h t n d := rfl

theorem flow5_ix5 (kj vfp : S2.Idx → EReal) (x : S5.Idx → EReal) (b : Fin 4) (h : Fin 8) (t : Fin 12) (n : Fin 325) (e : Fin 32) :
    flow5 kj vfp x (ix5 b h t n e) = flow (kj (ix2 n 0)) (vfp (ix2 n 0)) (x (ix5 b h t n e)) := rfl

/-- With real parameters and a nonzero divisor the flow value is a real: the quotient's divisor has a real
    inverse (the inverse of an infinity is 0), and sums and products of reals are real. -/
theorem flow_isReal {kj vfp x : EReal} (hk : IsReal kj) (hv : IsReal vfp) (hx : IsReal x) (h0 : vfp + epsC ≠ 0) :
    IsReal (flow kj vfp x) := by
  obtain ⟨a, rfl⟩ := hk
  obtain ⟨b, rfl⟩ := hv
  obtain ⟨c, rfl⟩ := hx
  unfold flow Ideal.div
  rw [if_neg h0]
  have hinv : ∃ r : ℝ, ((b : EReal) + epsC)⁻¹ = (r : EReal) := by
    generalize (b : EReal) + epsC = y
    induction y using EReal.rec with
    | bot => exact ⟨0, EReal.inv_bot⟩
    | top => exact ⟨0, EReal.inv_top⟩
    | coe r => exact ⟨r⁻¹, (EReal.coe_inv r).symm⟩
  obtain ⟨r, hr⟩ := hinv
  rw [hr]
  exact ⟨a * (c - c * c * r), by norm_cast⟩

/-- The three-term split score collapses to the plain one on reals: `W - W = 0` and `A - A = 0`, so the two
    correction sums vanish. -/
theorem comp_scores (A W : Fin 32 → EReal) (hA : ∀ e, IsReal (A e)) (hW : ∀ e, IsReal (W e)) :
    (∑ e : Fin 32, A e * W e + ∑ e : Fin 32, A e * (W e - W e)) + ∑ e : Fin 32, (A e - A e) * W e
      = ∑ e : Fin 32, A e * W e := by
  have h2 : ∑ e : Fin 32, A e * (W e - W e) = 0 := Finset.sum_eq_zero fun e _ => by
    obtain ⟨w, hw⟩ := hW e
    rw [hw, ← EReal.coe_sub, sub_self, EReal.coe_zero, mul_zero]
  have h3 : ∑ e : Fin 32, (A e - A e) * W e = 0 := Finset.sum_eq_zero fun e _ => by
    obtain ⟨a, ha⟩ := hA e
    rw [ha, ← EReal.coe_sub, sub_self, EReal.coe_zero, zero_mul]
  rw [h2, h3, add_zero, add_zero]

end Cert.Spec

end
-- ==== Proof.PreFacts.lean ====
/-
  What the precondition says of the arrays the second result depends on.

  The printed predicate is a conjunction of nine "all" reductions.  From its being all ones: every entry of
  the arrays `a1`, `a3`, `a6`, `a7` has absolute value below +∞, hence is a real number, and every entry
  of `a7` plus ε is different from 0.
-/
import proofs.«406247_j6803228197062_3_alg».proof.Pre_finite_inputs
import proofs.«406247_j6803228197062_3_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.PreFacts

open Idealize.ShloMosaic Idealize.ShloMosaic.ValueIdx

/-- The rank-0 shape has exactly one index. -/
private instance : Subsingleton Cert.Pre_finite_inputs.S_.Idx := ⟨fun a b => funext fun d => d.elim0⟩

/-- A truth value printed as an `i1` word is the word one exactly when it is true. -/
private theorem ofBool_eq_one {b : Bool} : BitVec.ofBool b = 1#1 ↔ b = true := by cases b <;> decide

/-- The word 0x7F800000 is +∞: exponent field all ones, fraction zero, sign clear. -/
private theorem inf_word : Ideal.ofBits .f32 0x7F800000#32 = (⊤ : EReal) := by
  simp [Ideal.ofBits, Ideal.ieee]

/-- An extended real whose absolute value `max x (-x)` is below +∞ is a real number: at `⊥` and at `⊤`
    the absolute value is `⊤`, which is not below itself. -/
private theorem isReal_of_abs_lt (x : EReal)
    (h : Ideal.cmp .olt (max x (-x)) (Ideal.ofBits .f32 0x7F800000#32) = 1#1) : Spec.IsReal x := by
  rw [inf_word] at h
  induction x using EReal.rec with
  | bot => simp [Ideal.cmp] at h
  | top => simp [Ideal.cmp] at h
  | coe r => exact ⟨r, rfl⟩

/-- A conjunction of two `i1` arrays that is one at an index has both conjuncts one there. -/
private theorem andi_at {s : Shape} (x y : IVec s 1) (j : s.Idx) (h : andi x y j = 1#1) :
    x j = 1#1 ∧ y j = 1#1 := IntOp.andi_eq_one.1 h

/-- One "all (|x| < +∞)" conjunct: the reduction by `and` over every axis being one, every entry of `x`
    compares below the broadcast +∞ word in absolute value, so every entry is real. -/
private theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ j, Spec.IsReal (x j) := fun j =>
  isReal_of_abs_lt (x j) (Host.reduce_andi_all _ _ hr hu ix0 e j)

/-- The last conjunct, "all (x + ε ≠ 0)": every entry of `x` plus the ε word compares unequal to the
    broadcast zero word; the zero word is the extended real 0 and the ε word is left as it is. -/
private theorem all_ne {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .une
            (addf x (broadcastInDim s ![] hb (constant (F := Ideal) Cert.Pre_finite_inputs.S_ .f32 0x3727C5AC#32)))
            (broadcastInDim s ![] hb (constant (F := Ideal) Cert.Pre_finite_inputs.S_ .f32 0x00000000#32)))
          (constantI Cert.Pre_finite_inputs.S_ 1 1#1) hr hu ix0 = 1#1) :
    ∀ j, x j + Spec.epsC ≠ 0 := fun j => by
  have h : Ideal.cmp .une (x j + Spec.epsC) (Ideal.ofBits .f32 0x00000000#32) = 1#1 :=
    Host.reduce_andi_all _ _ hr hu ix0 e j
  rw [Ideal.ofBits_zero_f32] at h
  simp only [Ideal.cmp, ofBool_eq_one, decide_eq_true_eq] at h
  exact h

theorem facts_of_pre [Cert.Pre_finite_inputs.Facts]
    (a0 a1 a2 a3 a4 a5 : FVec Ideal Cert.Pre_finite_inputs.S4x8x12x325x32 .f32)
    (a6 a7 : FVec Ideal Cert.Pre_finite_inputs.S325x1 .f32)
    (h : Cert.Pre_finite_inputs.fn (F := Ideal) a0 a1 a2 a3 a4 a5 a6 a7 = fun _ => 1#1) :
    (∀ j, Spec.IsReal (a1 j)) ∧ (∀ j, Spec.IsReal (a3 j)) ∧ (∀ j, Spec.IsReal (a6 j))
      ∧ (∀ j, Spec.IsReal (a7 j)) ∧ (∀ j, a7 j + Spec.epsC ≠ 0) := by
  -- the predicate's one entry, opened into its chain of nine conjuncts joined left to right
  have h0 : Cert.Pre_finite_inputs.fn (F := Ideal) a0 a1 a2 a3 a4 a5 a6 a7 ix0 = 1#1 := congrFun h ix0
  dsimp only [Cert.Pre_finite_inputs.fn, Cert.Pre_finite_inputs.fn_part1, Cert.Pre_finite_inputs.fn_part2] at h0
  -- peel the conjuncts off from the right: a7 + ε ≠ 0, then |a7|, |a6|, |a5|, |a4|, |a3|, |a2|, and |a0| with |a1|
  obtain ⟨h38, h43⟩ := andi_at _ _ _ h0
  obtain ⟨h33, h37⟩ := andi_at _ _ _ h38
  obtain ⟨h28, h32⟩ := andi_at _ _ _ h33
  obtain ⟨h23, h27⟩ := andi_at _ _ _ h28
  obtain ⟨h18, h22⟩ := andi_at _ _ _ h23
  obtain ⟨h13, h17⟩ := andi_at _ _ _ h18
  obtain ⟨h8, h12⟩ := andi_at _ _ _ h13
  obtain ⟨h3, h7⟩ := andi_at _ _ _ h8
  exact ⟨all_real a1 _ _ _ h7, all_real a3 _ _ _ h17, all_real a6 _ _ _ h32, all_real a7 _ _ _ h37,
    all_ne a7 _ _ _ h43⟩

end Cert.PreFacts

end
-- ==== Proof.RefValue.lean ====
/-
  The reference's four results are the attention arrays of the specification.

  Read one operation at a time: the two host products are sums over the 32 features resp. the 325 keys, the
  host maximum a fold of `max` from −∞ over the keys (taking the maximum with −∞ once more changes nothing),
  the host sum `0 + ∑`, and the broadcasts repeat a row's maximum and sum along the keys.
-/
import proofs.«406247_j6803228197062_3_alg».proof.Proof.Gen.ReferenceIdeal.Read
import proofs.«406247_j6803228197062_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.RefValue

open Cert.ReferenceIdeal Cert.ReferenceIdeal.Read Idealize.ShloMosaic Idealize.ShloMosaic.ValueIdx
open scoped BigOperators

/-! ### The generated index maps at an index given by its coordinates -/

private theorem lidx10_ix (b : Fin 4) (h : Fin 8) (t : Fin 12) (n m : Fin 325) (e : Fin 32) :
    lidx_main_v10 (ix5 b h t n m) e = ix5 b h t n e :=
  funext fun a => Fin.ext (by match a with | ⟨0, _⟩ => rfl | ⟨1, _⟩ => rfl | ⟨2, _⟩ => rfl | ⟨3, _⟩ => rfl | ⟨4, _⟩ => rfl)

private theorem ridx10_ix (b : Fin 4) (h : Fin 8) (t : Fin 12) (n m : Fin 325) (e : Fin 32) :
    ridx_main_v10 (ix5 b h t n m) e = ix5 b h t m e :=
  funext fun a => Fin.ext (by match a with | ⟨0, _⟩ => rfl | ⟨1, _⟩ => rfl | ⟨2, _⟩ => rfl | ⟨3, _⟩ => rfl | ⟨4, _⟩ => rfl)

/-- The two broadcasts of a row's maximum read the row's entry, whatever the key. -/
private theorem idx16_17_ix (b : Fin 4) (h : Fin 8) (t : Fin 12) (n m : Fin 325) :
    idx_main_v16 (idx_main_v17 (ix5 b h t n m)) = ix4 b h t n :=
  funext fun a => Fin.ext (by match a with | ⟨0, _⟩ => rfl | ⟨1, _⟩ => rfl | ⟨2, _⟩ => rfl | ⟨3, _⟩ => rfl)

private theorem idx20_ix (b : Fin 4) (h : Fin 8) (t : Fin 12) (n m : Fin 325) :
    idx_main_v20 (ix4 b h t n) m = ix5 b h t n m :=
  funext fun a => Fin.ext (by match a with | ⟨0, _⟩ => rfl | ⟨1, _⟩ => rfl | ⟨2, _⟩ => rfl | ⟨3, _⟩ => rfl | ⟨4, _⟩ => rfl)

/-- The two broadcasts of a row's sum likewise. -/
private theorem idx21_22_ix (b : Fin 4) (h : Fin 8) (t : Fin 12) (n m : Fin 325) :
    idx_main_v21 (idx_main_v22 (ix5 b h t n m)) = ix4 b h t n :=
  funext fun a => Fin.ext (by match a with | ⟨0, _⟩ => rfl | ⟨1, _⟩ => rfl | ⟨2, _⟩ => rfl | ⟨3, _⟩ => rfl)

private theorem lidx24_ix (b : Fin 4) (h : Fin 8) (t : Fin 12) (n : Fin 325) (d : Fin 32) (m : Fin 325) :
    lidx_main_v24 (ix5 b h t n d) m = ix5 b h t n m :=
  funext fun a => Fin.ext (by match a with | ⟨0, _⟩ => rfl | ⟨1, _⟩ => rfl | ⟨2, _⟩ => rfl | ⟨3, _⟩ => rfl | ⟨4, _⟩ => rfl)

private theorem ridx24_ix (b : Fin 4) (h : Fin 8) (t : Fin 12) (n : Fin 325) (d : Fin 32) (m : Fin 325) :
    ridx_main_v24 (ix5 b h t n d) m = ix5 b h t m d :=
  funext fun a => Fin.ext (by match a with | ⟨0, _⟩ => rfl | ⟨1, _⟩ => rfl | ⟨2, _⟩ => rfl | ⟨3, _⟩ => rfl | ⟨4, _⟩ => rfl)

/-! ### The first block, one buffer at a time, at coordinates

Throughout, the row of raw scores of query `n` in batch entry `(b, h, t)` is
`fun m => ∑ e, x0 (b, h, t, n, e) * x1 (b, h, t, m, e)`, a sum over the 32 features. -/

/-- The scaled score of query `n` and key `m`. -/
private theorem v12_ix (x0 x1 : (⟨S4x8x12x325x32, .f32⟩ : BufTy).Contents (Elt Ideal)) (b : Fin 4) (h : Fin 8) (t : Fin 12) (n m : Fin 325) :
    val_main_v12 (F := Ideal) x0 x1 (ix5 b h t n m)
      = (∑ e : Fin 32, x0 (ix5 b h t n e) * x1 (ix5 b h t m e)) * Spec.scaleC := by
  rw [val_main_v12_apply, val_main_v11_apply, val_main_cst_0_apply, val_main_v10_apply]
  refine congrArg (· * Spec.scaleC) (Finset.sum_congr rfl fun e _ => ?_)
  rw [lidx10_ix, ridx10_ix]

/-- The host maximum over the last axis is the fold of `max` from −∞ over the 325 keys: the row's maximum. -/
private theorem v13_ix (x0 x1 : (⟨S4x8x12x325x32, .f32⟩ : BufTy).Contents (Elt Ideal)) (b : Fin 4) (h : Fin 8) (t : Fin 12) (n : Fin 325) :
    val_main_v13 (F := Ideal) x0 x1 (ix4 b h t n)
      = Spec.rowMax (fun m => ∑ e : Fin 32, x0 (ix5 b h t n e) * x1 (ix5 b h t m e)) := by
  have hR : S4x8x12x325x325.Reduces [4] S4x8x12x325 := by decide
  refine (Host.reduce_eq_fold_single (α := Ideal .f32) (FloatOps.maximumf (F := Ideal) (φ := .f32))
    (val_main_v12 (F := Ideal) x0 x1) (val_main_cst_1 (F := Ideal))
    Gen.reducesTo_S4x8x12x325x325_S4x8x12x325_d4 hR Gen.h_S_ (ix4 b h t n)).trans ?_
  show (Finset.univ : Finset (Fin 325)).fold max Spec.botC
    (fun m => val_main_v12 (F := Ideal) x0 x1 (hR.lift (ix4 b h t n) m)) = _
  refine Finset.fold_congr fun m _ => ?_
  have hi : hR.lift (ix4 b h t n) m = ix5 b h t n m :=
    funext fun a => Fin.ext (by match a with | ⟨0, _⟩ => rfl | ⟨1, _⟩ => rfl | ⟨2, _⟩ => rfl | ⟨3, _⟩ => rfl | ⟨4, _⟩ => rfl)
  rw [hi]
  exact v12_ix x0 x1 b h t n m

/-- Taking the maximum with −∞ once more changes nothing: −∞ is the value the fold starts from, so it is below
    the fold. -/
private theorem v15_ix (x0 x1 : (⟨S4x8x12x325x32, .f32⟩ : BufTy).Contents (Elt Ideal)) (b : Fin 4) (h : Fin 8) (t : Fin 12) (n : Fin 325) :
    val_main_v15 (F := Ideal) x0 x1 (ix4 b h t n)
      = Spec.rowMax (fun m => ∑ e : Fin 32, x0 (ix5 b h t n e) * x1 (ix5 b h t m e)) := by
  rw [val_main_v15_apply, val_main_v14_apply, val_main_cst_2_apply, v13_ix]
  unfold Spec.rowMax
  show max Spec.botC _ = _
  exact max_eq_right ((Finset.le_fold_max _).2 (Or.inl le_rfl))

/-- The unnormalised weight of key `m`. -/
private theorem v19_ix (x0 x1 : (⟨S4x8x12x325x32, .f32⟩ : BufTy).Contents (Elt Ideal)) (b : Fin 4) (h : Fin 8) (t : Fin 12) (n m : Fin 325) :
    val_main_v19 (F := Ideal) x0 x1 (ix5 b h t n m)
      = Spec.rowExp (fun m' => ∑ e : Fin 32, x0 (ix5 b h t n e) * x1 (ix5 b h t m' e)) m := by
  rw [val_main_v19_apply, val_main_v18_apply, val_main_v17_apply, val_main_v16_apply, idx16_17_ix, v15_ix, v12_ix]
  rfl

/-- The host sum starts from the zero word: `0 + ∑` over the keys is the sum of the row's weights. -/
private theorem v20_ix (x0 x1 : (⟨S4x8x12x325x32, .f32⟩ : BufTy).Contents (Elt Ideal)) (b : Fin 4) (h : Fin 8) (t : Fin 12) (n : Fin 325) :
    val_main_v20 (F := Ideal) x0 x1 (ix4 b h t n)
      = ∑ m : Fin 325, Spec.rowExp (fun m' => ∑ e : Fin 32, x0 (ix5 b h t n e) * x1 (ix5 b h t m' e)) m := by
  rw [val_main_v20_apply, val_main_cst_3_apply, Ideal.ofBits_def, Ideal.ofBits_zero_f32, zero_add]
  refine Finset.sum_congr rfl fun m _ => ?_
  rw [idx20_ix, v19_ix]

/-- The normalised weight of key `m`. -/
private theorem v23_ix (x0 x1 : (⟨S4x8x12x325x32, .f32⟩ : BufTy).Contents (Elt Ideal)) (b : Fin 4) (h : Fin 8) (t : Fin 12) (n m : Fin 325) :
    val_main_v23 (F := Ideal) x0 x1 (ix5 b h t n m)
      = Ideal.div (Spec.rowExp (fun m' => ∑ e : Fin 32, x0 (ix5 b h t n e) * x1 (ix5 b h t m' e)) m)
          (∑ m'' : Fin 325, Spec.rowExp (fun m' => ∑ e : Fin 32, x0 (ix5 b h t n e) * x1 (ix5 b h t m' e)) m'') := by
  rw [val_main_v23_apply, val_main_v22_apply, val_main_v21_apply, idx21_22_ix, v20_ix, v19_ix]
  rfl

theorem ref_ff (x0 x1 x2 : (⟨S4x8x12x325x32, .f32⟩ : BufTy).Contents (Elt Ideal)) :
    val_main_v24 (F := Ideal) x0 x1 x2 = Spec.attn5 x0 x1 x2 := by
  funext i
  obtain ⟨b, h, t, n, d, rfl⟩ : ∃ (b : Fin 4) (h : Fin 8) (t : Fin 12) (n : Fin 325) (d : Fin 32), i = ix5 b h t n d :=
    ⟨i 0, i 1, i 2, i 3, i 4, eq_ix5 i⟩
  rw [Spec.attn5_ix5, val_main_v24_apply]
  unfold Spec.attnAt Spec.slice Spec.rowOut
  refine Finset.sum_congr rfl fun m _ => ?_
  rw [lidx24_ix, ridx24_ix, v23_ix]

/-! ### The flow array -/

/-- Both broadcast chains of a column parameter read row `n` of it. -/
private theorem idx3_4_ix (b : Fin 4) (h : Fin 8) (t : Fin 12) (n : Fin 325) (e : Fin 32) :
    idx_main_v3 (idx_main_v4 (ix5 b h t n e)) = ix2 n 0 :=
  funext fun a => Fin.ext (by match a with | ⟨0, _⟩ => rfl | ⟨1, _⟩ => rfl)

private theorem idx7_8_ix (b : Fin 4) (h : Fin 8) (t : Fin 12) (n : Fin 325) (e : Fin 32) :
    idx_main_v7 (idx_main_v8 (ix5 b h t n e)) = ix2 n 0 :=
  funext fun a => Fin.ext (by match a with | ⟨0, _⟩ => rfl | ⟨1, _⟩ => rfl)

/-- The key operand of the second block: the square, the divisor `x7 + ε`, the quotient, the difference and the
    product by `x6`, element by element. -/
private theorem v9_eq (x3 : (⟨S4x8x12x325x32, .f32⟩ : BufTy).Contents (Elt Ideal)) (x6 x7 : (⟨S325x1, .f32⟩ : BufTy).Contents (Elt Ideal)) :
    val_main_v9 (F := Ideal) x3 x6 x7 = Spec.flow5 x6 x7 x3 := by
  funext i
  obtain ⟨b, h, t, n, e, rfl⟩ : ∃ (b : Fin 4) (h : Fin 8) (t : Fin 12) (n : Fin 325) (e : Fin 32), i = ix5 b h t n e :=
    ⟨i 0, i 1, i 2, i 3, i 4, eq_ix5 i⟩
  rw [Spec.flow5_ix5, val_main_v9_apply, val_main_v8_apply, val_main_v7_apply, idx7_8_ix, val_main_v6_apply,
    val_main_v5_apply, val_main_v0_apply, val_main_v4_apply, val_main_v3_apply, idx3_4_ix, val_main_v2_apply,
    val_main_v1_apply, val_main_cst_apply]
  rfl

/-! ### The other three blocks are the first block on other operands, by definition -/

theorem ref_fs (x1 x2 x3 : (⟨S4x8x12x325x32, .f32⟩ : BufTy).Contents (Elt Ideal)) (x6 x7 : (⟨S325x1, .f32⟩ : BufTy).Contents (Elt Ideal)) :
    val_main_v39 (F := Ideal) x1 x2 x3 x6 x7 = Spec.attn5 x1 (Spec.flow5 x6 x7 x3) x2 := by
  have e : val_main_v39 (F := Ideal) x1 x2 x3 x6 x7
      = val_main_v24 (F := Ideal) x1 (val_main_v9 (F := Ideal) x3 x6 x7) x2 := rfl
  rw [e, ref_ff, v9_eq]

theorem ref_sf (x0 x4 x5 : (⟨S4x8x12x325x32, .f32⟩ : BufTy).Contents (Elt Ideal)) :
    val_main_v54 (F := Ideal) x0 x4 x5 = Spec.attn5 x4 x0 x5 := by
  have e : val_main_v54 (F := Ideal) x0 x4 x5 = val_main_v24 (F := Ideal) x4 x0 x5 := rfl
  rw [e, ref_ff]

theorem ref_ss (x3 x4 x5 : (⟨S4x8x12x325x32, .f32⟩ : BufTy).Contents (Elt Ideal)) :
    val_main_v69 (F := Ideal) x3 x4 x5 = Spec.attn5 x3 x4 x5 := by
  have e : val_main_v69 (F := Ideal) x3 x4 x5 = val_main_v24 (F := Ideal) x3 x4 x5 := rfl
  rw [e, ref_ff]

end Cert.RefValue

end
-- ==== Proof.KernelFlow.lean ====
/-
  The elementwise payloads of one grid point, read at an index.

  The truncated operands are the loaded blocks themselves (a format change is the identity on extended
  reals); the flow block is `kj * (x - x*x / (vfp + ε))` with the two column parameters repeated along the
  batch and feature axes; the two residual blocks are `x - x` of the operand they split.
-/
import proofs.«406247_j6803228197062_3_alg».proof.Proof.Gen.KernelIdeal.Skeleton
import proofs.«406247_j6803228197062_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelFlow

open Cert.KernelIdeal Cert.KernelIdeal.Gen Idealize.ShloMosaic Idealize.ShloMosaic.ValueIdx

/-- A cast of the block shape to itself changes nothing. -/
private theorem selfCast (x : FVec Ideal S8x325x32 .f32) :
    shapeCast S8x325x32 x shapeCasts_S8x325x32_S8x325x32 = x :=
  shapeCast_self x shapeCasts_S8x325x32_S8x325x32

/-- The two loaded blocks that are read again are the blocks themselves. -/
private theorem pay3_eq (x : FVec Ideal S8x325x32 .f32) : k0_pay3 (F := Ideal) x = x := selfCast x
private theorem pay4_eq (x : FVec Ideal S8x325x32 .f32) : k0_pay4 (F := Ideal) x = x := selfCast x

/-- A format change of a self-cast block, read at an index, is the block's element: the format change is
    the identity on extended reals and the cast is the identity on the block. -/
private theorem truncCast_apply (x : FVec Ideal S8x325x32 .f32) (j : S8x325x32.Idx) :
    (truncf (F := Ideal) .bf16 (shapeCast S8x325x32 x shapeCasts_S8x325x32_S8x325x32) bitsLt_bf16_f32 : FVec Ideal S8x325x32 .bf16) j
      = x j :=
  (truncf_apply (ψ := .bf16) (shapeCast S8x325x32 x shapeCasts_S8x325x32_S8x325x32) bitsLt_bf16_f32 j).trans
    (congrFun (selfCast x) j)

/-- The six plain truncations are the loaded block. -/
theorem pay6_apply (x : FVec Ideal S8x325x32 .f32) (j : S8x325x32.Idx) : k0_pay6 (F := Ideal) x j = x j :=
  truncCast_apply x j
theorem pay7_apply (x : FVec Ideal S8x325x32 .f32) (j : S8x325x32.Idx) : k0_pay7 (F := Ideal) x j = x j :=
  truncCast_apply x j
theorem pay9_apply (x : FVec Ideal S8x325x32 .f32) (j : S8x325x32.Idx) : k0_pay9 (F := Ideal) x j = x j :=
  truncCast_apply x j
theorem pay10_apply (x : FVec Ideal S8x325x32 .f32) (j : S8x325x32.Idx) : k0_pay10 (F := Ideal) x j = x j :=
  truncCast_apply x j
theorem pay11_apply (x : FVec Ideal S8x325x32 .f32) (j : S8x325x32.Idx) : k0_pay11 (F := Ideal) x j = x j :=
  truncCast_apply x j
theorem pay12_apply (x : FVec Ideal S8x325x32 .f32) (j : S8x325x32.Idx) : k0_pay12 (F := Ideal) x j = x j :=
  truncCast_apply x j

/-- The residual of the split of `x`. -/
theorem pay8_apply (x : FVec Ideal S8x325x32 .f32) (j : S8x325x32.Idx) : k0_pay8 (F := Ideal) x j = x j - x j := by
  show (subf (F := Ideal) (k0_pay3 (F := Ideal) x) (k0_pay3 (F := Ideal) x)) j = x j - x j
  rw [pay3_eq, subf_apply]

/-- A `[1, 325, 1]` column repeated over the block `[8, 325, 32]` reads, at `(τ, m, e)`, the column at row `m`:
    the two unit axes are read at `0`, the row axis at the result's row. -/
private theorem bcastCol_apply (v : FVec Ideal S1x325x1 .f32) (τ : Fin 8) (m : Fin 325) (e : Fin 32) :
    broadcastTo S8x325x32 v broadcasts_S1x325x1_S8x325x32 (ix3 τ m e) = v (ix3 (0 : Fin 1) m (0 : Fin 1)) :=
  broadcastTo_apply v broadcasts_S1x325x1_S8x325x32 (ix3 τ m e) (ix3 (0 : Fin 1) m (0 : Fin 1)) fun a => by
    match a with
    | ⟨0, _⟩ => rfl
    | ⟨1, _⟩ => rfl
    | ⟨2, _⟩ => rfl

/-- A `[325, 1]` column viewed as `[1, 325, 1]` reads, at `(0, m, 0)`, the column at `(m, 0)`: both have
    row-major position `m`. -/
private theorem castCol_apply (c : FVec Ideal S325x1 .f32) (m : Fin 325) :
    shapeCast S1x325x1 c shapeCasts_S325x1_S1x325x1 (ix3 (0 : Fin 1) m (0 : Fin 1)) = c (ix2 m 0) :=
  shapeCast_ab_1ab_apply c shapeCasts_S325x1_S1x325x1 0 m 0

/-- The flow block at batch entry `τ`, row `m`, feature `e`. -/
theorem pay5_apply (x3 : FVec Ideal S8x325x32 .f32) (x6 x7 : FVec Ideal S325x1 .f32) (τ : Fin 8) (m : Fin 325) (e : Fin 32) :
    k0_pay5 (F := Ideal) x3 x6 x7 (ix3 τ m e) = Spec.flow (x6 (ix2 m 0)) (x7 (ix2 m 0)) (x3 (ix3 τ m e)) := by
  -- the product of the repeated `kj` column with `x - x*x / (vfp + ε)`, the divisor's column repeated likewise
  show (mulf (F := Ideal) (broadcastTo S8x325x32 (shapeCast S1x325x1 x6 shapeCasts_S325x1_S1x325x1) broadcasts_S1x325x1_S8x325x32)
      (subf (F := Ideal) (k0_pay4 (F := Ideal) x3)
        (divf (F := Ideal) (mulf (F := Ideal) (k0_pay4 (F := Ideal) x3) (k0_pay4 (F := Ideal) x3))
          (broadcastTo S8x325x32
            (addf (F := Ideal) (shapeCast S1x325x1 x7 shapeCasts_S325x1_S1x325x1)
              (broadcast S1x325x1 (Scalar.ofBits (F := Ideal) .f32 0x3727C5AC#32)))
            broadcasts_S1x325x1_S8x325x32)))) (ix3 τ m e) = _
  rw [pay4_eq, mulf_apply, subf_apply, divf_apply, mulf_apply, bcastCol_apply, bcastCol_apply, addf_apply,
    broadcast_apply, castCol_apply, castCol_apply]
  rfl

/-- Its truncation is the flow block; the residual of its split is `flow - flow`. -/
theorem pay13_apply (x3 : FVec Ideal S8x325x32 .f32) (x6 x7 : FVec Ideal S325x1 .f32) (τ : Fin 8) (m : Fin 325) (e : Fin 32) :
    k0_pay13 (F := Ideal) x3 x6 x7 (ix3 τ m e) = Spec.flow (x6 (ix2 m 0)) (x7 (ix2 m 0)) (x3 (ix3 τ m e)) :=
  (truncf_apply (ψ := .bf16) (k0_pay5 (F := Ideal) x3 x6 x7) bitsLt_bf16_f32 (ix3 τ m e)).trans (pay5_apply x3 x6 x7 τ m e)
theorem pay14_apply (x3 : FVec Ideal S8x325x32 .f32) (x6 x7 : FVec Ideal S325x1 .f32) (τ : Fin 8) (m : Fin 325) (e : Fin 32) :
    k0_pay14 (F := Ideal) x3 x6 x7 (ix3 τ m e)
      = Spec.flow (x6 (ix2 m 0)) (x7 (ix2 m 0)) (x3 (ix3 τ m e)) - Spec.flow (x6 (ix2 m 0)) (x7 (ix2 m 0)) (x3 (ix3 τ m e)) := by
  show (subf (F := Ideal) (k0_pay5 (F := Ideal) x3 x6 x7) (k0_pay5 (F := Ideal) x3 x6 x7)) (ix3 τ m e) = _
  rw [subf_apply, pay5_apply]

end Cert.KernelFlow

end
-- ==== Proof.KernelBlock.lean ====
/-
  One grid point of the kernel, read at an index.

  Each of the four stored blocks is the attention slice of the point's eight loaded batch entries: the body's
  matrix products are sums over the 32 features resp. the 325 keys, its two lane reductions the row maximum
  and the row sum, and the format changes are the identity on extended reals.  The second block assembles
  its scores from three products of the split operands; on real operands the two correction products
  vanish (`Spec.comp_scores`).
-/
import proofs.«406247_j6803228197062_3_alg».proof.Proof.Gen.KernelIdeal.Skeleton
import proofs.«406247_j6803228197062_3_alg».proof.Proof.Spec
import proofs.«406247_j6803228197062_3_alg».proof.Proof.KernelFlow
import Idealize.ShloMosaic.Lib.ValueIdx
import Idealize.ShloMosaic.Lib.ValueLayout
import Idealize.ShloMosaic.Lib.Pipeline.Value
import Idealize.ShloMosaic.PureOps.Ideal.Laws

noncomputable section

namespace Cert.KernelBlock

open Cert.KernelIdeal Cert.KernelIdeal.Gen Idealize.ShloMosaic Idealize.ShloMosaic.ValueIdx
open scoped BigOperators

/-! ## Layout steps of the two row reductions -/

/-- The index a reduction over the key axis inserts coordinate `m` at is `(τ, n, m)`. -/
private theorem lift_ix (τ : Fin 8) (n : Fin 325) (m : Fin 325) :
    reduces_S8x325x325_S8x325.lift (ix2 τ n) m = ix3 τ n m :=
  funext fun a => Fin.ext (by
    match a with
    | ⟨0, _⟩ => rfl
    | ⟨1, _⟩ => rfl
    | ⟨2, _⟩ => rfl)

/-- A `[8, 325]` array given a trailing unit axis reads, at `(τ, n, u)`, the operand at `(τ, n)`: both row-major positions are
    `τ * 325 + n`. -/
private theorem keep_apply {α : Type} (x : S8x325.Idx → α) (τ : Fin 8) (n : Fin 325) (u : Fin 1) :
    shapeCast S8x325x1 x shapeCasts_S8x325_S8x325x1 (ix3 τ n u) = x (ix2 τ n) :=
  shapeCast_apply x shapeCasts_S8x325_S8x325x1 (ix3 τ n u) (ix2 τ n) (by
    have hu : u.val = 0 := by omega
    rw [Shape.rowMajor_val_two, Shape.rowMajor_val_three]
    show τ.val * 325 + n.val = (τ.val * 325 + n.val) * 1 + u.val
    omega)

/-- A `[8, 325, 1]` array repeated along the key axis reads, at `(τ, n, m)`, the operand at `(τ, n, 0)`. -/
private theorem rep_apply {α : Type} (x : S8x325x1.Idx → α) (τ : Fin 8) (n m : Fin 325) :
    broadcastTo S8x325x325 x broadcasts_S8x325x1_S8x325x325 (ix3 τ n m) = x (ix3 τ n (0 : Fin 1)) := by
  refine broadcastTo_apply x broadcasts_S8x325x1_S8x325x325 (ix3 τ n m) (ix3 τ n (0 : Fin 1)) fun a => ?_
  match a with
  | ⟨0, _⟩ => rfl
  | ⟨1, _⟩ => rfl
  | ⟨2, _⟩ => rfl

/-! ## The two matrix products read at an index -/

/-! The scores product: batch axis 0, both operands contracted on their feature axis 2; the result's axes are
    (batch, query row, key row). -/

private theorem lhs_qk_0 (i : S8x325x325.Idx) (q : dot_S8x325x32_S8x325x32_S8x325x325_2_2_1_1_0_0.contr.Idx) :
    (dot_S8x325x32_S8x325x32_S8x325x325_2_2_1_1_0_0.lhsIdx i q 0).val = (i 0).val := by
  unfold DotDims.lhsIdx
  rw [dif_pos (show (0 : Fin S8x325x32.rank) ∈ dot_S8x325x32_S8x325x32_S8x325x325_2_2_1_1_0_0.lhsBatch by decide)]
  rfl
private theorem lhs_qk_1 (i : S8x325x325.Idx) (q : dot_S8x325x32_S8x325x32_S8x325x325_2_2_1_1_0_0.contr.Idx) :
    (dot_S8x325x32_S8x325x32_S8x325x325_2_2_1_1_0_0.lhsIdx i q 1).val = (i 1).val := by
  unfold DotDims.lhsIdx
  rw [dif_neg (show ¬(1 : Fin S8x325x32.rank) ∈ dot_S8x325x32_S8x325x32_S8x325x325_2_2_1_1_0_0.lhsBatch by decide), dif_pos (show (1 : Fin S8x325x32.rank) ∈ dot_S8x325x32_S8x325x32_S8x325x325_2_2_1_1_0_0.lhsNonContracting by decide)]
  rfl
private theorem lhs_qk_2 (i : S8x325x325.Idx) (q : dot_S8x325x32_S8x325x32_S8x325x325_2_2_1_1_0_0.contr.Idx) :
    (dot_S8x325x32_S8x325x32_S8x325x325_2_2_1_1_0_0.lhsIdx i q 2).val = (q ⟨0, by decide⟩).val :=
  dot_S8x325x32_S8x325x32_S8x325x325_2_2_1_1_0_0.lhsIdx_val_of_single rfl i q
private theorem rhs_qk_0 (i : S8x325x325.Idx) (q : dot_S8x325x32_S8x325x32_S8x325x325_2_2_1_1_0_0.contr.Idx) :
    (dot_S8x325x32_S8x325x32_S8x325x325_2_2_1_1_0_0.rhsIdx i q 0).val = (i 0).val := by
  unfold DotDims.rhsIdx
  rw [dif_pos (show (0 : Fin S8x325x32.rank) ∈ dot_S8x325x32_S8x325x32_S8x325x325_2_2_1_1_0_0.rhsBatch by decide)]
  rfl
private theorem rhs_qk_1 (i : S8x325x325.Idx) (q : dot_S8x325x32_S8x325x32_S8x325x325_2_2_1_1_0_0.contr.Idx) :
    (dot_S8x325x32_S8x325x32_S8x325x325_2_2_1_1_0_0.rhsIdx i q 1).val = (i 2).val := by
  unfold DotDims.rhsIdx
  rw [dif_neg (show ¬(1 : Fin S8x325x32.rank) ∈ dot_S8x325x32_S8x325x32_S8x325x325_2_2_1_1_0_0.rhsBatch by decide), dif_pos (show (1 : Fin S8x325x32.rank) ∈ dot_S8x325x32_S8x325x32_S8x325x325_2_2_1_1_0_0.rhsNonContracting by decide)]
  rfl
private theorem rhs_qk_2 (i : S8x325x325.Idx) (q : dot_S8x325x32_S8x325x32_S8x325x325_2_2_1_1_0_0.contr.Idx) :
    (dot_S8x325x32_S8x325x32_S8x325x325_2_2_1_1_0_0.rhsIdx i q 2).val = (q ⟨0, by decide⟩).val :=
  dot_S8x325x32_S8x325x32_S8x325x325_2_2_1_1_0_0.rhsIdx_val_of_single rfl i q

/-- The scores product at `(τ, n, m)`: the sum over the 32 features of query row `n` times key row `m`. -/
private theorem scores_apply (q k : FVec Ideal S8x325x32 .bf16) (τ : Fin 8) (n m : Fin 325) :
    matmul (F := Ideal) dot_S8x325x32_S8x325x32_S8x325x325_2_2_1_1_0_0 none q k (constant S8x325x325 .f32 0x00000000#32) (ix3 τ n m)
      = ∑ e : Fin 32, q (ix3 τ n e) * k (ix3 τ m e) := by
  refine (Ideal.matmul_constant_zero_apply dot_S8x325x32_S8x325x32_S8x325x325_2_2_1_1_0_0 none q k (ix3 τ n m)).trans ?_
  refine (Equiv.sum_comp (ValueIdx.contrEquiv1 dot_S8x325x32_S8x325x32_S8x325x325_2_2_1_1_0_0 32 rfl rfl).symm _).symm.trans ?_
  refine Finset.sum_congr rfl fun e _ => ?_
  have hk := ValueIdx.contrEquiv1_symm_val dot_S8x325x32_S8x325x32_S8x325x325_2_2_1_1_0_0 32 rfl rfl e
  have el : dot_S8x325x32_S8x325x32_S8x325x325_2_2_1_1_0_0.lhsIdx (ix3 τ n m) ((ValueIdx.contrEquiv1 dot_S8x325x32_S8x325x32_S8x325x325_2_2_1_1_0_0 32 rfl rfl).symm e) = ix3 τ n e := funext fun a => Fin.ext (by
    match a with
    | ⟨0, _⟩ => exact lhs_qk_0 _ _
    | ⟨1, _⟩ => exact lhs_qk_1 _ _
    | ⟨2, _⟩ => exact (lhs_qk_2 _ _).trans hk)
  have er : dot_S8x325x32_S8x325x32_S8x325x325_2_2_1_1_0_0.rhsIdx (ix3 τ n m) ((ValueIdx.contrEquiv1 dot_S8x325x32_S8x325x32_S8x325x325_2_2_1_1_0_0 32 rfl rfl).symm e) = ix3 τ m e := funext fun a => Fin.ext (by
    match a with
    | ⟨0, _⟩ => exact rhs_qk_0 _ _
    | ⟨1, _⟩ => exact rhs_qk_1 _ _
    | ⟨2, _⟩ => exact (rhs_qk_2 _ _).trans hk)
  exact congrArg₂ (· * ·) (congrArg q el) (congrArg k er)

/-! The output product: batch axis 0, the weights contracted on their key axis 2, the values on their key axis 1; the
    result's axes are (batch, query row, feature). -/

private theorem lhs_pv_0 (i : S8x325x32.Idx) (q : dot_S8x325x325_S8x325x32_S8x325x32_2_1_1_2_0_0.contr.Idx) :
    (dot_S8x325x325_S8x325x32_S8x325x32_2_1_1_2_0_0.lhsIdx i q 0).val = (i 0).val := by
  unfold DotDims.lhsIdx
  rw [dif_pos (show (0 : Fin S8x325x325.rank) ∈ dot_S8x325x325_S8x325x32_S8x325x32_2_1_1_2_0_0.lhsBatch by decide)]
  rfl
private theorem lhs_pv_1 (i : S8x325x32.Idx) (q : dot_S8x325x325_S8x325x32_S8x325x32_2_1_1_2_0_0.contr.Idx) :
    (dot_S8x325x325_S8x325x32_S8x325x32_2_1_1_2_0_0.lhsIdx i q 1).val = (i 1).val := by
  unfold DotDims.lhsIdx
  rw [dif_neg (show ¬(1 : Fin S8x325x325.rank) ∈ dot_S8x325x325_S8x325x32_S8x325x32_2_1_1_2_0_0.lhsBatch by decide), dif_pos (show (1 : Fin S8x325x325.rank) ∈ dot_S8x325x325_S8x325x32_S8x325x32_2_1_1_2_0_0.lhsNonContracting by decide)]
  rfl
private theorem lhs_pv_2 (i : S8x325x32.Idx) (q : dot_S8x325x325_S8x325x32_S8x325x32_2_1_1_2_0_0.contr.Idx) :
    (dot_S8x325x325_S8x325x32_S8x325x32_2_1_1_2_0_0.lhsIdx i q 2).val = (q ⟨0, by decide⟩).val :=
  dot_S8x325x325_S8x325x32_S8x325x32_2_1_1_2_0_0.lhsIdx_val_of_single rfl i q
private theorem rhs_pv_0 (i : S8x325x32.Idx) (q : dot_S8x325x325_S8x325x32_S8x325x32_2_1_1_2_0_0.contr.Idx) :
    (dot_S8x325x325_S8x325x32_S8x325x32_2_1_1_2_0_0.rhsIdx i q 0).val = (i 0).val := by
  unfold DotDims.rhsIdx
  rw [dif_pos (show (0 : Fin S8x325x32.rank) ∈ dot_S8x325x325_S8x325x32_S8x325x32_2_1_1_2_0_0.rhsBatch by decide)]
  rfl
private theorem rhs_pv_1 (i : S8x325x32.Idx) (q : dot_S8x325x325_S8x325x32_S8x325x32_2_1_1_2_0_0.contr.Idx) :
    (dot_S8x325x325_S8x325x32_S8x325x32_2_1_1_2_0_0.rhsIdx i q 1).val = (q ⟨0, by decide⟩).val :=
  dot_S8x325x325_S8x325x32_S8x325x32_2_1_1_2_0_0.rhsIdx_val_of_single rfl i q
private theorem rhs_pv_2 (i : S8x325x32.Idx) (q : dot_S8x325x325_S8x325x32_S8x325x32_2_1_1_2_0_0.contr.Idx) :
    (dot_S8x325x325_S8x325x32_S8x325x32_2_1_1_2_0_0.rhsIdx i q 2).val = (i 2).val := by
  unfold DotDims.rhsIdx
  rw [dif_neg (show ¬(2 : Fin S8x325x32.rank) ∈ dot_S8x325x325_S8x325x32_S8x325x32_2_1_1_2_0_0.rhsBatch by decide), dif_pos (show (2 : Fin S8x325x32.rank) ∈ dot_S8x325x325_S8x325x32_S8x325x32_2_1_1_2_0_0.rhsNonContracting by decide)]
  rfl

/-- The output product at `(τ, n, d)`: the sum over the 325 keys of weight `(n, m)` times value `(m, d)`. -/
private theorem out_apply (p : FVec Ideal S8x325x325 .bf16) (v : FVec Ideal S8x325x32 .bf16) (τ : Fin 8) (n : Fin 325) (d : Fin 32) :
    matmul (F := Ideal) dot_S8x325x325_S8x325x32_S8x325x32_2_1_1_2_0_0 none p v (constant S8x325x32 .f32 0x00000000#32) (ix3 τ n d)
      = ∑ m : Fin 325, p (ix3 τ n m) * v (ix3 τ m d) := by
  refine (Ideal.matmul_constant_zero_apply dot_S8x325x325_S8x325x32_S8x325x32_2_1_1_2_0_0 none p v (ix3 τ n d)).trans ?_
  refine (Equiv.sum_comp (ValueIdx.contrEquiv1 dot_S8x325x325_S8x325x32_S8x325x32_2_1_1_2_0_0 325 rfl rfl).symm _).symm.trans ?_
  refine Finset.sum_congr rfl fun m _ => ?_
  have hk := ValueIdx.contrEquiv1_symm_val dot_S8x325x325_S8x325x32_S8x325x32_2_1_1_2_0_0 325 rfl rfl m
  have el : dot_S8x325x325_S8x325x32_S8x325x32_2_1_1_2_0_0.lhsIdx (ix3 τ n d) ((ValueIdx.contrEquiv1 dot_S8x325x325_S8x325x32_S8x325x32_2_1_1_2_0_0 325 rfl rfl).symm m) = ix3 τ n m := funext fun a => Fin.ext (by
    match a with
    | ⟨0, _⟩ => exact lhs_pv_0 _ _
    | ⟨1, _⟩ => exact lhs_pv_1 _ _
    | ⟨2, _⟩ => exact (lhs_pv_2 _ _).trans hk)
  have er : dot_S8x325x325_S8x325x32_S8x325x32_2_1_1_2_0_0.rhsIdx (ix3 τ n d) ((ValueIdx.contrEquiv1 dot_S8x325x325_S8x325x32_S8x325x32_2_1_1_2_0_0 325 rfl rfl).symm m) = ix3 τ m d := funext fun a => Fin.ext (by
    match a with
    | ⟨0, _⟩ => exact rhs_pv_0 _ _
    | ⟨1, _⟩ => exact (rhs_pv_1 _ _).trans hk
    | ⟨2, _⟩ => exact rhs_pv_2 _ _)
  exact congrArg₂ (· * ·) (congrArg p el) (congrArg v er)

/-! ## The shared chain from the raw scores to the stored block -/

/-- The raw scores times the broadcast scale word. -/
private def scaled (s : FVec Ideal S8x325x325 .f32) : FVec Ideal S8x325x325 .f32 :=
  mulf s (broadcast S8x325x325 (Scalar.ofBits (F := Ideal) .f32 0x3E3504F3#32))

/-- The maximum over the key axis, folded from the −∞ word, repeated along that axis. -/
private def rowMaxB (x : FVec Ideal S8x325x325 .f32) : FVec Ideal S8x325x325 .f32 :=
  broadcastTo S8x325x325
    (shapeCast S8x325x1 (multiReduction .maximumf [2] S8x325 x 0xFF800000#32 reduces_S8x325x325_S8x325 (.inl rfl) rfl)
      shapeCasts_S8x325_S8x325x1)
    broadcasts_S8x325x1_S8x325x325

/-- The sum over the key axis, repeated along that axis. -/
private def rowSumB (x : FVec Ideal S8x325x325 .f32) : FVec Ideal S8x325x325 .f32 :=
  broadcastTo S8x325x325
    (shapeCast S8x325x1 (multiReduction .add [2] S8x325 x 0x00000000#32 reduces_S8x325x325_S8x325 (.inl rfl) rfl)
      shapeCasts_S8x325_S8x325x1)
    broadcasts_S8x325x1_S8x325x325

/-- The unnormalised weights: the exponential of the scaled scores minus their row maximum. -/
private def expo (s : FVec Ideal S8x325x325 .f32) : FVec Ideal S8x325x325 .f32 :=
  exp (subf (scaled s) (rowMaxB (scaled s)))

/-- The weights divided by their row sum, times the values. -/
private def tail (s : FVec Ideal S8x325x325 .f32) (v : FVec Ideal S8x325x32 .bf16) : FVec Ideal S8x325x32 .f32 :=
  matmul dot_S8x325x325_S8x325x32_S8x325x32_2_1_1_2_0_0 none
    (truncf .bf16 (divf (expo s) (rowSumB (expo s))) bitsLt_bf16_f32) v (constant S8x325x32 .f32 0x00000000#32)

/-- The repeated row maximum at `(τ, n, m)`: the fold of `max` from −∞ over the keys of row `(τ, n)`. -/
private theorem rowMaxB_apply (x : FVec Ideal S8x325x325 .f32) (τ : Fin 8) (n m : Fin 325) :
    rowMaxB x (ix3 τ n m) = (Finset.univ : Finset (Fin 325)).fold max Spec.botC (fun m' => x (ix3 τ n m')) := by
  unfold rowMaxB
  refine (rep_apply _ τ n m).trans ?_
  refine (keep_apply _ τ n 0).trans ?_
  refine (Ideal.multiReduction_maximumf_single x 0xFF800000#32 reduces_S8x325x325_S8x325 (.inl rfl) rfl (ix2 τ n)).trans ?_
  have hf : (x ∘ reduces_S8x325x325_S8x325.lift (ix2 τ n)) = fun m' : Fin 325 => x (ix3 τ n m') :=
    funext fun m' => congrArg x (lift_ix τ n m')
  exact congrArg (fun f => (Finset.univ : Finset (Fin 325)).fold max Spec.botC f) hf

/-- The repeated row sum at `(τ, n, m)`: the sum over the keys of row `(τ, n)`. -/
private theorem rowSumB_apply (x : FVec Ideal S8x325x325 .f32) (τ : Fin 8) (n m : Fin 325) :
    rowSumB x (ix3 τ n m) = ∑ m' : Fin 325, x (ix3 τ n m') := by
  unfold rowSumB
  refine (rep_apply _ τ n m).trans ?_
  refine (keep_apply _ τ n 0).trans ?_
  refine (Ideal.multiReduction_add_single x 0x00000000#32 reduces_S8x325x325_S8x325 (.inl rfl) rfl (ix2 τ n)).trans ?_
  exact Finset.sum_congr rfl fun m' _ => congrArg x (lift_ix τ n m')

/-- The unnormalised weight at `(τ, n, m)` is the specification's, of the row of raw scores `(τ, n, ·)`. -/
private theorem expo_apply (s : FVec Ideal S8x325x325 .f32) (τ : Fin 8) (n m : Fin 325) :
    expo s (ix3 τ n m) = Spec.rowExp (fun m' => s (ix3 τ n m')) m := by
  have hM : rowMaxB (scaled s) (ix3 τ n m) = Spec.rowMax (fun m' => s (ix3 τ n m')) := rowMaxB_apply (scaled s) τ n m
  show Ideal.exp (s (ix3 τ n m) * Spec.scaleC - rowMaxB (scaled s) (ix3 τ n m))
    = Ideal.exp (s (ix3 τ n m) * Spec.scaleC - Spec.rowMax (fun m' => s (ix3 τ n m')))
  rw [hM]

/-- The chain at `(τ, n, d)` is the specification's row output of the raw scores `(τ, n, ·)` and the value column `(τ, ·, d)`. -/
private theorem tail_apply (s : FVec Ideal S8x325x325 .f32) (v : FVec Ideal S8x325x32 .bf16) (τ : Fin 8) (n : Fin 325) (d : Fin 32) :
    tail s v (ix3 τ n d) = Spec.rowOut (fun m => s (ix3 τ n m)) (fun m => v (ix3 τ m d)) := by
  unfold tail
  refine (out_apply _ v τ n d).trans ?_
  unfold Spec.rowOut
  refine Finset.sum_congr rfl fun m _ => ?_
  have hS : rowSumB (expo s) (ix3 τ n m) = ∑ m' : Fin 325, Spec.rowExp (fun m'' => s (ix3 τ n m'')) m' :=
    (rowSumB_apply (expo s) τ n m).trans (Finset.sum_congr rfl fun m' _ => expo_apply s τ n m')
  exact congrArg (· * v (ix3 τ m d)) (congrArg₂ Ideal.div (expo_apply s τ n m) hS)

/-! ## The four stored blocks -/

/-- First block: queries `x0`, keys `x1`, values `x2`. -/
theorem blk_ff (x0 x1 x2 : FVec Ideal S8x325x32 .f32) (τ : Fin 8) (n : Fin 325) (d : Fin 32) :
    k0_pay15 (F := Ideal) (k0_pay6 x0) (k0_pay7 x1) (k0_pay9 x2) (ix3 τ n d)
      = Spec.slice (fun n' e => x0 (ix3 τ n' e)) (fun m e => x1 (ix3 τ m e)) (fun m e => x2 (ix3 τ m e)) n d := by
  have hp : k0_pay15 (F := Ideal) (k0_pay6 x0) (k0_pay7 x1) (k0_pay9 x2)
      = tail (matmul dot_S8x325x32_S8x325x32_S8x325x325_2_2_1_1_0_0 none (k0_pay6 x0) (k0_pay7 x1) (constant S8x325x325 .f32 0x00000000#32)) (k0_pay9 x2) := rfl
  refine (congrFun hp (ix3 τ n d)).trans ?_
  refine (tail_apply _ _ τ n d).trans ?_
  unfold Spec.slice
  refine congrArg₂ Spec.rowOut (funext fun m => ?_) (funext fun m => KernelFlow.pay9_apply x2 _)
  exact (scores_apply _ _ τ n m).trans (Finset.sum_congr rfl fun e _ =>
    congrArg₂ (· * ·) (KernelFlow.pay6_apply x0 _) (KernelFlow.pay7_apply x1 _))

/-- Second block: queries `x1`, keys the flow of `x3` under the column parameters `x6`, `x7`, values `x2`; the
    split products collapse because every operand is real and the divisor is nonzero. -/
theorem blk_fs (x1 x2 x3 : FVec Ideal S8x325x32 .f32) (x6 x7 : FVec Ideal S325x1 .f32)
    (h1 : ∀ j, Spec.IsReal (x1 j)) (h3 : ∀ j, Spec.IsReal (x3 j)) (h6 : ∀ j, Spec.IsReal (x6 j))
    (h7 : ∀ j, Spec.IsReal (x7 j)) (h0 : ∀ j, x7 j + Spec.epsC ≠ 0)
    (τ : Fin 8) (n : Fin 325) (d : Fin 32) :
    k0_pay16 (F := Ideal) (k0_pay7 x1) (k0_pay8 x1) (k0_pay9 x2) (k0_pay13 x3 x6 x7) (k0_pay14 x3 x6 x7) (ix3 τ n d)
      = Spec.slice (fun n' e => x1 (ix3 τ n' e))
          (fun m e => Spec.flow (x6 (ix2 m 0)) (x7 (ix2 m 0)) (x3 (ix3 τ m e)))
          (fun m e => x2 (ix3 τ m e)) n d := by
  have hp : k0_pay16 (F := Ideal) (k0_pay7 x1) (k0_pay8 x1) (k0_pay9 x2) (k0_pay13 x3 x6 x7) (k0_pay14 x3 x6 x7)
      = tail (addf (addf
          (matmul dot_S8x325x32_S8x325x32_S8x325x325_2_2_1_1_0_0 none (k0_pay7 x1) (k0_pay13 x3 x6 x7) (constant S8x325x325 .f32 0x00000000#32))
          (matmul dot_S8x325x32_S8x325x32_S8x325x325_2_2_1_1_0_0 none (k0_pay7 x1) (truncf .bf16 (k0_pay14 x3 x6 x7) bitsLt_bf16_f32) (constant S8x325x325 .f32 0x00000000#32)))
          (matmul dot_S8x325x32_S8x325x32_S8x325x325_2_2_1_1_0_0 none (k0_pay8 x1) (k0_pay13 x3 x6 x7) (constant S8x325x325 .f32 0x00000000#32))) (k0_pay9 x2) := rfl
  refine (congrFun hp (ix3 τ n d)).trans ?_
  refine (tail_apply _ _ τ n d).trans ?_
  unfold Spec.slice
  refine congrArg₂ Spec.rowOut (funext fun m => ?_) (funext fun m => KernelFlow.pay9_apply x2 _)
  -- the query row and the key row of this score, both real
  have hA : ∀ e : Fin 32, Spec.IsReal (x1 (ix3 τ n e)) := fun e => h1 _
  have hW : ∀ e : Fin 32, Spec.IsReal (Spec.flow (x6 (ix2 m 0)) (x7 (ix2 m 0)) (x3 (ix3 τ m e))) :=
    fun e => Spec.flow_isReal (h6 _) (h7 _) (h3 _) (h0 _)
  -- the main product, and the two products against a residual
  have e1 : matmul (F := Ideal) dot_S8x325x32_S8x325x32_S8x325x325_2_2_1_1_0_0 none (k0_pay7 x1) (k0_pay13 x3 x6 x7) (constant S8x325x325 .f32 0x00000000#32) (ix3 τ n m)
      = ∑ e : Fin 32, x1 (ix3 τ n e) * Spec.flow (x6 (ix2 m 0)) (x7 (ix2 m 0)) (x3 (ix3 τ m e)) :=
    (scores_apply _ _ τ n m).trans (Finset.sum_congr rfl fun e _ =>
      congrArg₂ (· * ·) (KernelFlow.pay7_apply x1 _) (KernelFlow.pay13_apply x3 x6 x7 τ m e))
  have e2 : matmul (F := Ideal) dot_S8x325x32_S8x325x32_S8x325x325_2_2_1_1_0_0 none (k0_pay7 x1) (truncf .bf16 (k0_pay14 x3 x6 x7) bitsLt_bf16_f32) (constant S8x325x325 .f32 0x00000000#32) (ix3 τ n m)
      = ∑ e : Fin 32, x1 (ix3 τ n e) * (Spec.flow (x6 (ix2 m 0)) (x7 (ix2 m 0)) (x3 (ix3 τ m e))
          - Spec.flow (x6 (ix2 m 0)) (x7 (ix2 m 0)) (x3 (ix3 τ m e))) :=
    (scores_apply _ _ τ n m).trans (Finset.sum_congr rfl fun e _ =>
      congrArg₂ (· * ·) (KernelFlow.pay7_apply x1 _) (KernelFlow.pay14_apply x3 x6 x7 τ m e))
  have e3 : matmul (F := Ideal) dot_S8x325x32_S8x325x32_S8x325x325_2_2_1_1_0_0 none (k0_pay8 x1) (k0_pay13 x3 x6 x7) (constant S8x325x325 .f32 0x00000000#32) (ix3 τ n m)
      = ∑ e : Fin 32, (x1 (ix3 τ n e) - x1 (ix3 τ n e)) * Spec.flow (x6 (ix2 m 0)) (x7 (ix2 m 0)) (x3 (ix3 τ m e)) :=
    (scores_apply _ _ τ n m).trans (Finset.sum_congr rfl fun e _ =>
      congrArg₂ (· * ·) (KernelFlow.pay8_apply x1 _) (KernelFlow.pay13_apply x3 x6 x7 τ m e))
  exact (congrArg₂ (· + ·) (congrArg₂ (· + ·) e1 e2) e3).trans
    (Spec.comp_scores (fun e => x1 (ix3 τ n e))
      (fun e => Spec.flow (x6 (ix2 m 0)) (x7 (ix2 m 0)) (x3 (ix3 τ m e))) hA hW)

/-- Third block: queries `x4`, keys `x0`, values `x5`. -/
theorem blk_sf (x0 x4 x5 : FVec Ideal S8x325x32 .f32) (τ : Fin 8) (n : Fin 325) (d : Fin 32) :
    k0_pay1 (F := Ideal) (k0_pay12 x5) (k0_pay17 (k0_pay6 x0) (k0_pay11 x4)) (k0_pay18 (k0_pay6 x0) (k0_pay11 x4)) (ix3 τ n d)
      = Spec.slice (fun n' e => x4 (ix3 τ n' e)) (fun m e => x0 (ix3 τ m e)) (fun m e => x5 (ix3 τ m e)) n d := by
  have hp : k0_pay1 (F := Ideal) (k0_pay12 x5) (k0_pay17 (k0_pay6 x0) (k0_pay11 x4)) (k0_pay18 (k0_pay6 x0) (k0_pay11 x4))
      = tail (matmul dot_S8x325x32_S8x325x32_S8x325x325_2_2_1_1_0_0 none (k0_pay11 x4) (k0_pay6 x0) (constant S8x325x325 .f32 0x00000000#32)) (k0_pay12 x5) := rfl
  refine (congrFun hp (ix3 τ n d)).trans ?_
  refine (tail_apply _ _ τ n d).trans ?_
  unfold Spec.slice
  refine congrArg₂ Spec.rowOut (funext fun m => ?_) (funext fun m => KernelFlow.pay12_apply x5 _)
  exact (scores_apply _ _ τ n m).trans (Finset.sum_congr rfl fun e _ =>
    congrArg₂ (· * ·) (KernelFlow.pay11_apply x4 _) (KernelFlow.pay6_apply x0 _))

/-- Fourth block: queries `x3`, keys `x4`, values `x5`. -/
theorem blk_ss (x3 x4 x5 : FVec Ideal S8x325x32 .f32) (τ : Fin 8) (n : Fin 325) (d : Fin 32) :
    k0_pay2 (F := Ideal) (k0_pay10 x3) (k0_pay11 x4) (k0_pay12 x5) (ix3 τ n d)
      = Spec.slice (fun n' e => x3 (ix3 τ n' e)) (fun m e => x4 (ix3 τ m e)) (fun m e => x5 (ix3 τ m e)) n d := by
  have hp : k0_pay2 (F := Ideal) (k0_pay10 x3) (k0_pay11 x4) (k0_pay12 x5)
      = tail (matmul dot_S8x325x32_S8x325x32_S8x325x325_2_2_1_1_0_0 none (k0_pay10 x3) (k0_pay11 x4) (constant S8x325x325 .f32 0x00000000#32)) (k0_pay12 x5) := rfl
  refine (congrFun hp (ix3 τ n d)).trans ?_
  refine (tail_apply _ _ τ n d).trans ?_
  unfold Spec.slice
  refine congrArg₂ Spec.rowOut (funext fun m => ?_) (funext fun m => KernelFlow.pay12_apply x5 _)
  exact (scores_apply _ _ τ n m).trans (Finset.sum_congr rfl fun e _ =>
    congrArg₂ (· * ·) (KernelFlow.pay10_apply x3 _) (KernelFlow.pay11_apply x4 _))

end Cert.KernelBlock

end
-- ==== Proof.Flat.lean ====
/-
  Flattening the three batch axes.

  The kernel's program works on the arrays reshaped from [4,8,12,325,32] to [384,325,32]: batch entry
  `M = (b*8 + h)*12 + t`, so `b = M / 96`, `h = M / 12 % 8`, `t = M % 12`.  Attention and the flow
  nonlinearity act on each batch entry separately, hence commute with the reshape.
-/
import proofs.«406247_j6803228197062_3_alg».proof.Proof.Spec
import Idealize.ShloMosaic.Lib.Pipeline.Value
import Idealize.ShloMosaic.Lib.ValueIdx

noncomputable section

namespace Cert.Flat

open Idealize.ShloMosaic Idealize.ShloMosaic.ValueIdx Cert.Spec
open scoped BigOperators

abbrev S3 : Shape := ⟨3, ![384, 325, 32]⟩

/-- Attention of batch entry `M` of the flattened arrays. -/
def attn3At (q k v : S3.Idx → EReal) (M : Fin 384) (n : Fin 325) (d : Fin 32) : EReal :=
  slice (fun n' e => q (ix3 M n' e)) (fun m e => k (ix3 M m e)) (fun m e => v (ix3 M m e)) n d

/-- Attention over the flattened arrays as an array. -/
def attn3 (q k v : S3.Idx → EReal) : S3.Idx → EReal := fun i =>
  attn3At q k v ⟨(i 0).val, (i 0).isLt⟩ ⟨(i 1).val, (i 1).isLt⟩ ⟨(i 2).val, (i 2).isLt⟩

theorem attn3_ix3 (q k v : S3.Idx → EReal) (M : Fin 384) (n : Fin 325) (d : Fin 32) :
    attn3 q k v (ix3 M n d) = attn3At q k v M n d := rfl

/-- The flow array over the flattened layout. -/
def flow3 (kj vfp : S2.Idx → EReal) (x : S3.Idx → EReal) : S3.Idx → EReal := fun i =>
  flow (kj (ix2 ⟨(i 1).val, (i 1).isLt⟩ 0)) (vfp (ix2 ⟨(i 1).val, (i 1).isLt⟩ 0)) (x i)

theorem flow3_ix3 (kj vfp : S2.Idx → EReal) (x : S3.Idx → EReal) (M : Fin 384) (n : Fin 325) (e : Fin 32) :
    flow3 kj vfp x (ix3 M n e) = flow (kj (ix2 n 0)) (vfp (ix2 n 0)) (x (ix3 M n e)) := rfl

/-- The three batch coordinates of a flattened batch index. -/
def bOf (M : Fin 384) : Fin 4 := ⟨M.val / 96, by have := M.isLt; omega⟩
def hOf (M : Fin 384) : Fin 8 := ⟨M.val / 12 % 8, by omega⟩
def tOf (M : Fin 384) : Fin 12 := ⟨M.val % 12, by omega⟩

/-- The flattened array at `(M, n, e)` is the five-axis array at `(b, h, t, n, e)`: same row-major position. -/
theorem flat_apply (x : S5.Idx → EReal) (hc : S5.ShapeCasts S3) (M : Fin 384) (n : Fin 325) (e : Fin 32) :
    shapeCast S3 x hc (ix3 M n e) = x (ix5 (bOf M) (hOf M) (tOf M) n e) := by
  refine shapeCast_apply x hc _ _ ?_
  rw [Shape.rowMajor_val_five, Shape.rowMajor_val_three]
  show ((((M.val / 96) * 8 + M.val / 12 % 8) * 12 + M.val % 12) * 325 + n.val) * 32 + e.val
      = (M.val * 325 + n.val) * 32 + e.val
  have := M.isLt
  omega

/-- Going back: the five-axis reading of a flattened array at `(b, h, t, n, d)` is entry `(b*8+h)*12+t`. -/
theorem unflat_apply (y : S3.Idx → EReal) (hc : S3.ShapeCasts S5) (b : Fin 4) (h : Fin 8) (t : Fin 12) (n : Fin 325) (d : Fin 32) :
    shapeCast S5 y hc (ix5 b h t n d)
      = y (ix3 ⟨(b.val * 8 + h.val) * 12 + t.val, by have := b.isLt; have := h.isLt; have := t.isLt; omega⟩ n d) := by
  refine shapeCast_apply y hc _ _ ?_
  rw [Shape.rowMajor_val_five, Shape.rowMajor_val_three]
  rfl

/-- Attention commutes with the flattening. -/
theorem attn3_flat (q k v : S5.Idx → EReal) (hc : S5.ShapeCasts S3) :
    attn3 (shapeCast S3 q hc) (shapeCast S3 k hc) (shapeCast S3 v hc) = shapeCast S3 (attn5 q k v) hc := by
  funext i
  obtain ⟨M, n, d, rfl⟩ : ∃ (M : Fin 384) (n : Fin 325) (d : Fin 32), i = ix3 M n d := ⟨i 0, i 1, i 2, eq_ix3 i⟩
  rw [attn3_ix3, flat_apply (attn5 q k v), attn5_ix5]
  unfold attn3At attnAt
  simp only [flat_apply]

/-- The flow nonlinearity commutes with the flattening. -/
theorem flow3_flat (kj vfp : S2.Idx → EReal) (x : S5.Idx → EReal) (hc : S5.ShapeCasts S3) :
    flow3 kj vfp (shapeCast S3 x hc) = shapeCast S3 (flow5 kj vfp x) hc := by
  funext i
  obtain ⟨M, n, e, rfl⟩ : ∃ (M : Fin 384) (n : Fin 325) (e : Fin 32), i = ix3 M n e := ⟨i 0, i 1, i 2, eq_ix3 i⟩
  rw [flow3_ix3, flat_apply x, flat_apply (flow5 kj vfp x), flow5_ix5]

/-- A reshaped array of reals is an array of reals. -/
theorem isReal_cast {s t : Shape} (x : s.Idx → EReal) (hc : s.ShapeCasts t) (hx : ∀ i, IsReal (x i)) (j : t.Idx) :
    IsReal (shapeCast t x hc j) := by
  unfold shapeCast
  exact hx _

end Cert.Flat

end
-- ==== Proof.KernelArrays.lean ====
/-
  From grid points to whole arrays, and through the reshapes around the region.

  Window `w` of the pipeline moves with the grid coordinate along the batch axis only: point `t` holds batch
  entries `8t … 8t+7`, all 325 rows and all 32 features; the two column parameters are staged whole.  What
  point `t` writes back is therefore block `t` of the attention of the flattened arrays, the 48 blocks tile
  the 384 batch entries, and the host reshapes before and after the region undo each other around it.
-/
import proofs.«406247_j6803228197062_3_alg».proof.Proof.Gen.KernelIdeal.Frame
import proofs.«406247_j6803228197062_3_alg».proof.Proof.KernelBlock
import proofs.«406247_j6803228197062_3_alg».proof.Proof.Flat
import proofs.«406247_j6803228197062_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelArrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Spec Cert.Flat

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

theorem N48 : cfg0.N = 48 := N_0

/-- The free-flow-speed column as the region finds it, at its literal type. -/
abbrev vfCol (c : Dev nD) : S325x1.Idx → EReal := V m c main_arg7
/-- The same column as launched. -/
abbrev vfArg (c : Dev nD) : S325x1.Idx → EReal := m ((c : Thread nD τ).loc main_arg7)

/-! ## The index maps: the grid coordinate on the batch axis, zero elsewhere -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, win0_10.index t (0 : Fin 3) = t.val ∧ win0_10.index t (1 : Fin 3) = 0 ∧ win0_10.index t (2 : Fin 3) = 0)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, win0_11.index t (0 : Fin 3) = t.val ∧ win0_11.index t (1 : Fin 3) = 0 ∧ win0_11.index t (2 : Fin 3) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The batch entry that row `τ` of point `t`'s block is. -/
def Mof (t : Fin cfg0.N) (τ : Fin 8) : Fin 384 :=
  ⟨8 * t.val + τ.val, by have h : t.val < 48 := lt_of_lt_of_eq t.isLt N48; have := τ.isLt; omega⟩

/-! ## An input window's block at a point, read off its array -/

theorem blk0_apply (c : Dev nD) (t : Fin cfg0.N) (τ : Fin 8) (n : Fin 325) (e : Fin 32) :
    iblk m c 0 t (ix3 τ n e) = V m c main_v0 (ix3 (Mof t τ) n e) := by
  show V m c main_v0 (((cfg0.win 0).blk t).view.emb (ix3 τ n e)) = _
  refine congrArg (V m c main_v0) (funext fun a => Fin.ext ?_)
  obtain ⟨e0, e1, e2⟩ := idx0 t
  match a with
  | ⟨0, _⟩ => show win0_0.index t (0 : Fin 3) * 8 + 1 * τ.val = 8 * t.val + τ.val; omega
  | ⟨1, _⟩ => show win0_0.index t (1 : Fin 3) * 325 + 1 * n.val = n.val; omega
  | ⟨2, _⟩ => show win0_0.index t (2 : Fin 3) * 32 + 1 * e.val = e.val; omega
theorem blk1_apply (c : Dev nD) (t : Fin cfg0.N) (τ : Fin 8) (n : Fin 325) (e : Fin 32) :
    iblk m c 1 t (ix3 τ n e) = V m c main_v1 (ix3 (Mof t τ) n e) := by
  show V m c main_v1 (((cfg0.win 1).blk t).view.emb (ix3 τ n e)) = _
  refine congrArg (V m c main_v1) (funext fun a => Fin.ext ?_)
  obtain ⟨e0, e1, e2⟩ := idx1 t
  match a with
  | ⟨0, _⟩ => show win0_1.index t (0 : Fin 3) * 8 + 1 * τ.val = 8 * t.val + τ.val; omega
  | ⟨1, _⟩ => show win0_1.index t (1 : Fin 3) * 325 + 1 * n.val = n.val; omega
  | ⟨2, _⟩ => show win0_1.index t (2 : Fin 3) * 32 + 1 * e.val = e.val; omega
theorem blk2_apply (c : Dev nD) (t : Fin cfg0.N) (τ : Fin 8) (n : Fin 325) (e : Fin 32) :
    iblk m c 2 t (ix3 τ n e) = V m c main_v2 (ix3 (Mof t τ) n e) := by
  show V m c main_v2 (((cfg0.win 2).blk t).view.emb (ix3 τ n e)) = _
  refine congrArg (V m c main_v2) (funext fun a => Fin.ext ?_)
  obtain ⟨e0, e1, e2⟩ := idx2 t
  match a with
  | ⟨0, _⟩ => show win0_2.index t (0 : Fin 3) * 8 + 1 * τ.val = 8 * t.val + τ.val; omega
  | ⟨1, _⟩ => show win0_2.index t (1 : Fin 3) * 325 + 1 * n.val = n.val; omega
  | ⟨2, _⟩ => show win0_2.index t (2 : Fin 3) * 32 + 1 * e.val = e.val; omega
theorem blk3_apply (c : Dev nD) (t : Fin cfg0.N) (τ : Fin 8) (n : Fin 325) (e : Fin 32) :
    iblk m c 3 t (ix3 τ n e) = V m c main_v3 (ix3 (Mof t τ) n e) := by
  show V m c main_v3 (((cfg0.win 3).blk t).view.emb (ix3 τ n e)) = _
  refine congrArg (V m c main_v3) (funext fun a => Fin.ext ?_)
  obtain ⟨e0, e1, e2⟩ := idx3 t
  match a with
  | ⟨0, _⟩ => show win0_3.index t (0 : Fin 3) * 8 + 1 * τ.val = 8 * t.val + τ.val; omega
  | ⟨1, _⟩ => show win0_3.index t (1 : Fin 3) * 325 + 1 * n.val = n.val; omega
  | ⟨2, _⟩ => show win0_3.index t (2 : Fin 3) * 32 + 1 * e.val = e.val; omega
theorem blk4_apply (c : Dev nD) (t : Fin cfg0.N) (τ : Fin 8) (n : Fin 325) (e : Fin 32) :
    iblk m c 4 t (ix3 τ n e) = V m c main_v4 (ix3 (Mof t τ) n e) := by
  show V m c main_v4 (((cfg0.win 4).blk t).view.emb (ix3 τ n e)) = _
  refine congrArg (V m c main_v4) (funext fun a => Fin.ext ?_)
  obtain ⟨e0, e1, e2⟩ := idx4 t
  match a with
  | ⟨0, _⟩ => show win0_4.index t (0 : Fin 3) * 8 + 1 * τ.val = 8 * t.val + τ.val; omega
  | ⟨1, _⟩ => show win0_4.index t (1 : Fin 3) * 325 + 1 * n.val = n.val; omega
  | ⟨2, _⟩ => show win0_4.index t (2 : Fin 3) * 32 + 1 * e.val = e.val; omega
theorem blk5_apply (c : Dev nD) (t : Fin cfg0.N) (τ : Fin 8) (n : Fin 325) (e : Fin 32) :
    iblk m c 5 t (ix3 τ n e) = V m c main_v5 (ix3 (Mof t τ) n e) := by
  show V m c main_v5 (((cfg0.win 5).blk t).view.emb (ix3 τ n e)) = _
  refine congrArg (V m c main_v5) (funext fun a => Fin.ext ?_)
  obtain ⟨e0, e1, e2⟩ := idx5 t
  match a with
  | ⟨0, _⟩ => show win0_5.index t (0 : Fin 3) * 8 + 1 * τ.val = 8 * t.val + τ.val; omega
  | ⟨1, _⟩ => show win0_5.index t (1 : Fin 3) * 325 + 1 * n.val = n.val; omega
  | ⟨2, _⟩ => show win0_5.index t (2 : Fin 3) * 32 + 1 * e.val = e.val; omega
theorem blk6_apply (c : Dev nD) (t : Fin cfg0.N) (n : Fin 325) :
    iblk m c 6 t (ix2 n 0) = V m c main_arg6 (ix2 n 0) := by
  show V m c main_arg6 (((cfg0.win 6).blk t).view.emb (ix2 n 0)) = _
  refine congrArg (V m c main_arg6) (funext fun a => Fin.ext ?_)
  obtain ⟨e0, e1⟩ := idx6 t
  match a with
  | ⟨0, _⟩ => show win0_6.index t (0 : Fin 2) * 325 + 1 * n.val = n.val; omega
  | ⟨1, _⟩ => show win0_6.index t (1 : Fin 2) * 1 + 1 * 0 = 0; omega
theorem blk7_apply (c : Dev nD) (t : Fin cfg0.N) (n : Fin 325) :
    iblk m c 7 t (ix2 n 0) = V m c main_arg7 (ix2 n 0) := by
  show V m c main_arg7 (((cfg0.win 7).blk t).view.emb (ix2 n 0)) = _
  refine congrArg (V m c main_arg7) (funext fun a => Fin.ext ?_)
  obtain ⟨e0, e1⟩ := idx7 t
  match a with
  | ⟨0, _⟩ => show win0_7.index t (0 : Fin 2) * 325 + 1 * n.val = n.val; omega
  | ⟨1, _⟩ => show win0_7.index t (1 : Fin 2) * 1 + 1 * 0 = 0; omega

/-! ## An output window's block at a point sits at batch entries `8t … 8t+7` -/

theorem emb8 (t : Fin cfg0.N) (τ : Fin 8) (n : Fin 325) (d : Fin 32) :
    ((cfg0.win 8).blk t).view.emb (ix3 τ n d) = ix3 (Mof t τ) n d := by
  refine funext fun a => Fin.ext ?_
  obtain ⟨e0, e1, e2⟩ := idx8 t
  match a with
  | ⟨0, _⟩ => show win0_8.index t (0 : Fin 3) * 8 + 1 * τ.val = 8 * t.val + τ.val; omega
  | ⟨1, _⟩ => show win0_8.index t (1 : Fin 3) * 325 + 1 * n.val = n.val; omega
  | ⟨2, _⟩ => show win0_8.index t (2 : Fin 3) * 32 + 1 * d.val = d.val; omega
theorem emb9 (t : Fin cfg0.N) (τ : Fin 8) (n : Fin 325) (d : Fin 32) :
    ((cfg0.win 9).blk t).view.emb (ix3 τ n d) = ix3 (Mof t τ) n d := by
  refine funext fun a => Fin.ext ?_
  obtain ⟨e0, e1, e2⟩ := idx9 t
  match a with
  | ⟨0, _⟩ => show win0_9.index t (0 : Fin 3) * 8 + 1 * τ.val = 8 * t.val + τ.val; omega
  | ⟨1, _⟩ => show win0_9.index t (1 : Fin 3) * 325 + 1 * n.val = n.val; omega
  | ⟨2, _⟩ => show win0_9.index t (2 : Fin 3) * 32 + 1 * d.val = d.val; omega
theorem emb10 (t : Fin cfg0.N) (τ : Fin 8) (n : Fin 325) (d : Fin 32) :
    ((cfg0.win 10).blk t).view.emb (ix3 τ n d) = ix3 (Mof t τ) n d := by
  refine funext fun a => Fin.ext ?_
  obtain ⟨e0, e1, e2⟩ := idx10 t
  match a with
  | ⟨0, _⟩ => show win0_10.index t (0 : Fin 3) * 8 + 1 * τ.val = 8 * t.val + τ.val; omega
  | ⟨1, _⟩ => show win0_10.index t (1 : Fin 3) * 325 + 1 * n.val = n.val; omega
  | ⟨2, _⟩ => show win0_10.index t (2 : Fin 3) * 32 + 1 * d.val = d.val; omega
theorem emb11 (t : Fin cfg0.N) (τ : Fin 8) (n : Fin 325) (d : Fin 32) :
    ((cfg0.win 11).blk t).view.emb (ix3 τ n d) = ix3 (Mof t τ) n d := by
  refine funext fun a => Fin.ext ?_
  obtain ⟨e0, e1, e2⟩ := idx11 t
  match a with
  | ⟨0, _⟩ => show win0_11.index t (0 : Fin 3) * 8 + 1 * τ.val = 8 * t.val + τ.val; omega
  | ⟨1, _⟩ => show win0_11.index t (1 : Fin 3) * 325 + 1 * n.val = n.val; omega
  | ⟨2, _⟩ => show win0_11.index t (2 : Fin 3) * 32 + 1 * d.val = d.val; omega

/-! ## What point `t` writes back: block `t` of the attention of the flattened arrays -/

theorem flushed8_eq (c : Dev nD) (t : Fin cfg0.N) :
    (dats m 0 c).flushed 8 t
      = ((cfg0.win 8).blk t).view.read (Elt Ideal) (attn3 (V m c main_v0) (V m c main_v1) (V m c main_v2)) := by
  show (cfg0.win 8).cut (grid0.coords t) ((dats m 0 c).after 8 t) = _
  rw [after0_8]
  unfold out0_8
  rw [View.canon_unit_zero hz3]
  simp only [View.ld_unit_zero (S := S8x325x32) hz3]
  funext j
  obtain ⟨τ, n, d, rfl⟩ : ∃ (τ : Fin 8) (n : Fin 325) (d : Fin 32), j = ix3 τ n d := ⟨j 0, j 1, j 2, eq_ix3 j⟩
  show k0_pay15 (F := Ideal) (k0_pay6 (iblk m c 0 t)) (k0_pay7 (iblk m c 1 t)) (k0_pay9 (iblk m c 2 t)) (ix3 τ n d)
      = attn3 (V m c main_v0) (V m c main_v1) (V m c main_v2) (((cfg0.win 8).blk t).view.emb (ix3 τ n d))
  rw [emb8 t τ n d, attn3_ix3]
  refine (KernelBlock.blk_ff (iblk m c 0 t) (iblk m c 1 t) (iblk m c 2 t) τ n d).trans ?_
  unfold attn3At
  simp only [blk0_apply, blk1_apply, blk2_apply]

theorem flushed9_eq (c : Dev nD) (t : Fin cfg0.N)
    (H1 : ∀ i, IsReal (V m c main_v1 i)) (H3 : ∀ i, IsReal (V m c main_v3 i))
    (H6 : ∀ i, IsReal (V m c main_arg6 i)) (H7 : ∀ i, IsReal (V m c main_arg7 i))
    (H0 : ∀ i, vfCol m c i + epsC ≠ 0) :
    (dats m 0 c).flushed 9 t
      = ((cfg0.win 9).blk t).view.read (Elt Ideal)
          (attn3 (V m c main_v1) (flow3 (V m c main_arg6) (V m c main_arg7) (V m c main_v3)) (V m c main_v2)) := by
  show (cfg0.win 9).cut (grid0.coords t) ((dats m 0 c).after 9 t) = _
  rw [after0_9]
  unfold out0_9
  rw [View.canon_unit_zero hz3]
  simp only [View.ld_unit_zero (S := S8x325x32) hz3, View.ld_unit_zero (S := S325x1) hz2]
  funext j
  obtain ⟨τ, n, d, rfl⟩ : ∃ (τ : Fin 8) (n : Fin 325) (d : Fin 32), j = ix3 τ n d := ⟨j 0, j 1, j 2, eq_ix3 j⟩
  show k0_pay16 (F := Ideal) (k0_pay7 (iblk m c 1 t)) (k0_pay8 (iblk m c 1 t)) (k0_pay9 (iblk m c 2 t))
        (k0_pay13 (iblk m c 3 t) (iblk m c 6 t) (iblk m c 7 t)) (k0_pay14 (iblk m c 3 t) (iblk m c 6 t) (iblk m c 7 t)) (ix3 τ n d)
      = attn3 (V m c main_v1) (flow3 (V m c main_arg6) (V m c main_arg7) (V m c main_v3)) (V m c main_v2)
          (((cfg0.win 9).blk t).view.emb (ix3 τ n d))
  rw [emb9 t τ n d, attn3_ix3]
  refine (KernelBlock.blk_fs (iblk m c 1 t) (iblk m c 2 t) (iblk m c 3 t) (iblk m c 6 t) (iblk m c 7 t)
    (fun j => H1 _) (fun j => H3 _) (fun j => H6 _) (fun j => H7 _) (fun j => H0 _) τ n d).trans ?_
  unfold attn3At
  simp only [blk1_apply, blk2_apply, blk3_apply, blk6_apply, blk7_apply, flow3_ix3]

theorem flushed10_eq (c : Dev nD) (t : Fin cfg0.N) :
    (dats m 0 c).flushed 10 t
      = ((cfg0.win 10).blk t).view.read (Elt Ideal) (attn3 (V m c main_v4) (V m c main_v0) (V m c main_v5)) := by
  show (cfg0.win 10).cut (grid0.coords t) ((dats m 0 c).after 10 t) = _
  rw [after0_10]
  unfold out0_10
  rw [View.canon_unit_zero hz3]
  simp only [View.ld_unit_zero (S := S8x325x32) hz3]
  funext j
  obtain ⟨τ, n, d, rfl⟩ : ∃ (τ : Fin 8) (n : Fin 325) (d : Fin 32), j = ix3 τ n d := ⟨j 0, j 1, j 2, eq_ix3 j⟩
  show k0_pay1 (F := Ideal) (k0_pay12 (iblk m c 5 t)) (k0_pay17 (k0_pay6 (iblk m c 0 t)) (k0_pay11 (iblk m c 4 t)))
        (k0_pay18 (k0_pay6 (iblk m c 0 t)) (k0_pay11 (iblk m c 4 t))) (ix3 τ n d)
      = attn3 (V m c main_v4) (V m c main_v0) (V m c main_v5) (((cfg0.win 10).blk t).view.emb (ix3 τ n d))
  rw [emb10 t τ n d, attn3_ix3]
  refine (KernelBlock.blk_sf (iblk m c 0 t) (iblk m c 4 t) (iblk m c 5 t) τ n d).trans ?_
  unfold attn3At
  simp only [blk0_apply, blk4_apply, blk5_apply]

theorem flushed11_eq (c : Dev nD) (t : Fin cfg0.N) :
    (dats m 0 c).flushed 11 t
      = ((cfg0.win 11).blk t).view.read (Elt Ideal) (attn3 (V m c main_v3) (V m c main_v4) (V m c main_v5)) := by
  show (cfg0.win 11).cut (grid0.coords t) ((dats m 0 c).after 11 t) = _
  rw [after0_11]
  unfold out0_11
  rw [View.canon_unit_zero hz3]
  simp only [View.ld_unit_zero (S := S8x325x32) hz3]
  funext j
  obtain ⟨τ, n, d, rfl⟩ : ∃ (τ : Fin 8) (n : Fin 325) (d : Fin 32), j = ix3 τ n d := ⟨j 0, j 1, j 2, eq_ix3 j⟩
  show k0_pay2 (F := Ideal) (k0_pay10 (iblk m c 3 t)) (k0_pay11 (iblk m c 4 t)) (k0_pay12 (iblk m c 5 t)) (ix3 τ n d)
      = attn3 (V m c main_v3) (V m c main_v4) (V m c main_v5) (((cfg0.win 11).blk t).view.emb (ix3 τ n d))
  rw [emb11 t τ n d, attn3_ix3]
  refine (KernelBlock.blk_ss (iblk m c 3 t) (iblk m c 4 t) (iblk m c 5 t) τ n d).trans ?_
  unfold attn3At
  simp only [blk3_apply, blk4_apply, blk5_apply]

/-! ## The 48 blocks tile the 384 batch entries -/

theorem mem_blk8 (t : Fin cfg0.N) (i : S384x325x32.Idx) :
    i ∈ ((cfg0.win 8).blk t).view.set ↔ ∀ a : Fin 3, win0_8.index t a * S8x325x32.size a ≤ (i a).val ∧ (i a).val < win0_8.index t a * S8x325x32.size a + S8x325x32.size a := by
  show i ∈ ((View.whole main_v6_0).slice (win0_8.rect t)).set ↔ _
  rw [View.set_slice_whole, Rect.mem_set_unit]
  exact Iff.rfl

/-- Batch entry `i 0` lies in the block of point `i 0 / 8`. -/
theorem cover8 (i : S384x325x32.Idx) :
    ∃ t : Fin cfg0.N, (cfg0.win 8).flush t = true ∧ i ∈ ((cfg0.win 8).blk t).view.set := by
  have hi0 : (i 0).val < 384 := (i 0).isLt
  have hi1 : (i 1).val < 325 := (i 1).isLt
  have hi2 : (i 2).val < 32 := (i 2).isLt
  have ht : (i 0).val / 8 < cfg0.N := lt_of_lt_of_eq (by omega : (i 0).val / 8 < 48) N48.symm
  refine ⟨⟨(i 0).val / 8, ht⟩, flush0_8 _, ?_⟩
  rw [mem_blk8]
  obtain ⟨e0, e1, e2⟩ := idx8 ⟨(i 0).val / 8, ht⟩
  have e0' : win0_8.index ⟨(i 0).val / 8, ht⟩ (0 : Fin 3) = (i 0).val / 8 := e0
  intro a
  match a with
  | ⟨0, _⟩ => show win0_8.index ⟨(i 0).val / 8, ht⟩ (0 : Fin 3) * 8 ≤ (i 0).val ∧ (i 0).val < win0_8.index ⟨(i 0).val / 8, ht⟩ (0 : Fin 3) * 8 + 8; omega
  | ⟨1, _⟩ => show win0_8.index ⟨(i 0).val / 8, ht⟩ (1 : Fin 3) * 325 ≤ (i 1).val ∧ (i 1).val < win0_8.index ⟨(i 0).val / 8, ht⟩ (1 : Fin 3) * 325 + 325; omega
  | ⟨2, _⟩ => show win0_8.index ⟨(i 0).val / 8, ht⟩ (2 : Fin 3) * 32 ≤ (i 2).val ∧ (i 2).val < win0_8.index ⟨(i 0).val / 8, ht⟩ (2 : Fin 3) * 32 + 32; omega

theorem mem_blk9 (t : Fin cfg0.N) (i : S384x325x32.Idx) :
    i ∈ ((cfg0.win 9).blk t).view.set ↔ ∀ a : Fin 3, win0_9.index t a * S8x325x32.size a ≤ (i a).val ∧ (i a).val < win0_9.index t a * S8x325x32.size a + S8x325x32.size a := by
  show i ∈ ((View.whole main_v6_1).slice (win0_9.rect t)).set ↔ _
  rw [View.set_slice_whole, Rect.mem_set_unit]
  exact Iff.rfl

/-- Batch entry `i 0` lies in the block of point `i 0 / 8`. -/
theorem cover9 (i : S384x325x32.Idx) :
    ∃ t : Fin cfg0.N, (cfg0.win 9).flush t = true ∧ i ∈ ((cfg0.win 9).blk t).view.set := by
  have hi0 : (i 0).val < 384 := (i 0).isLt
  have hi1 : (i 1).val < 325 := (i 1).isLt
  have hi2 : (i 2).val < 32 := (i 2).isLt
  have ht : (i 0).val / 8 < cfg0.N := lt_of_lt_of_eq (by omega : (i 0).val / 8 < 48) N48.symm
  refine ⟨⟨(i 0).val / 8, ht⟩, flush0_9 _, ?_⟩
  rw [mem_blk9]
  obtain ⟨e0, e1, e2⟩ := idx9 ⟨(i 0).val / 8, ht⟩
  have e0' : win0_9.index ⟨(i 0).val / 8, ht⟩ (0 : Fin 3) = (i 0).val / 8 := e0
  intro a
  match a with
  | ⟨0, _⟩ => show win0_9.index ⟨(i 0).val / 8, ht⟩ (0 : Fin 3) * 8 ≤ (i 0).val ∧ (i 0).val < win0_9.index ⟨(i 0).val / 8, ht⟩ (0 : Fin 3) * 8 + 8; omega
  | ⟨1, _⟩ => show win0_9.index ⟨(i 0).val / 8, ht⟩ (1 : Fin 3) * 325 ≤ (i 1).val ∧ (i 1).val < win0_9.index ⟨(i 0).val / 8, ht⟩ (1 : Fin 3) * 325 + 325; omega
  | ⟨2, _⟩ => show win0_9.index ⟨(i 0).val / 8, ht⟩ (2 : Fin 3) * 32 ≤ (i 2).val ∧ (i 2).val < win0_9.index ⟨(i 0).val / 8, ht⟩ (2 : Fin 3) * 32 + 32; omega

theorem mem_blk10 (t : Fin cfg0.N) (i : S384x325x32.Idx) :
    i ∈ ((cfg0.win 10).blk t).view.set ↔ ∀ a : Fin 3, win0_10.index t a * S8x325x32.size a ≤ (i a).val ∧ (i a).val < win0_10.index t a * S8x325x32.size a + S8x325x32.size a := by
  show i ∈ ((View.whole main_v6_2).slice (win0_10.rect t)).set ↔ _
  rw [View.set_slice_whole, Rect.mem_set_unit]
  exact Iff.rfl

/-- Batch entry `i 0` lies in the block of point `i 0 / 8`. -/
theorem cover10 (i : S384x325x32.Idx) :
    ∃ t : Fin cfg0.N, (cfg0.win 10).flush t = true ∧ i ∈ ((cfg0.win 10).blk t).view.set := by
  have hi0 : (i 0).val < 384 := (i 0).isLt
  have hi1 : (i 1).val < 325 := (i 1).isLt
  have hi2 : (i 2).val < 32 := (i 2).isLt
  have ht : (i 0).val / 8 < cfg0.N := lt_of_lt_of_eq (by omega : (i 0).val / 8 < 48) N48.symm
  refine ⟨⟨(i 0).val / 8, ht⟩, flush0_10 _, ?_⟩
  rw [mem_blk10]
  obtain ⟨e0, e1, e2⟩ := idx10 ⟨(i 0).val / 8, ht⟩
  have e0' : win0_10.index ⟨(i 0).val / 8, ht⟩ (0 : Fin 3) = (i 0).val / 8 := e0
  intro a
  match a with
  | ⟨0, _⟩ => show win0_10.index ⟨(i 0).val / 8, ht⟩ (0 : Fin 3) * 8 ≤ (i 0).val ∧ (i 0).val < win0_10.index ⟨(i 0).val / 8, ht⟩ (0 : Fin 3) * 8 + 8; omega
  | ⟨1, _⟩ => show win0_10.index ⟨(i 0).val / 8, ht⟩ (1 : Fin 3) * 325 ≤ (i 1).val ∧ (i 1).val < win0_10.index ⟨(i 0).val / 8, ht⟩ (1 : Fin 3) * 325 + 325; omega
  | ⟨2, _⟩ => show win0_10.index ⟨(i 0).val / 8, ht⟩ (2 : Fin 3) * 32 ≤ (i 2).val ∧ (i 2).val < win0_10.index ⟨(i 0).val / 8, ht⟩ (2 : Fin 3) * 32 + 32; omega

theorem mem_blk11 (t : Fin cfg0.N) (i : S384x325x32.Idx) :
    i ∈ ((cfg0.win 11).blk t).view.set ↔ ∀ a : Fin 3, win0_11.index t a * S8x325x32.size a ≤ (i a).val ∧ (i a).val < win0_11.index t a * S8x325x32.size a + S8x325x32.size a := by
  show i ∈ ((View.whole main_v6_3).slice (win0_11.rect t)).set ↔ _
  rw [View.set_slice_whole, Rect.mem_set_unit]
  exact Iff.rfl

/-- Batch entry `i 0` lies in the block of point `i 0 / 8`. -/
theorem cover11 (i : S384x325x32.Idx) :
    ∃ t : Fin cfg0.N, (cfg0.win 11).flush t = true ∧ i ∈ ((cfg0.win 11).blk t).view.set := by
  have hi0 : (i 0).val < 384 := (i 0).isLt
  have hi1 : (i 1).val < 325 := (i 1).isLt
  have hi2 : (i 2).val < 32 := (i 2).isLt
  have ht : (i 0).val / 8 < cfg0.N := lt_of_lt_of_eq (by omega : (i 0).val / 8 < 48) N48.symm
  refine ⟨⟨(i 0).val / 8, ht⟩, flush0_11 _, ?_⟩
  rw [mem_blk11]
  obtain ⟨e0, e1, e2⟩ := idx11 ⟨(i 0).val / 8, ht⟩
  have e0' : win0_11.index ⟨(i 0).val / 8, ht⟩ (0 : Fin 3) = (i 0).val / 8 := e0
  intro a
  match a with
  | ⟨0, _⟩ => show win0_11.index ⟨(i 0).val / 8, ht⟩ (0 : Fin 3) * 8 ≤ (i 0).val ∧ (i 0).val < win0_11.index ⟨(i 0).val / 8, ht⟩ (0 : Fin 3) * 8 + 8; omega
  | ⟨1, _⟩ => show win0_11.index ⟨(i 0).val / 8, ht⟩ (1 : Fin 3) * 325 ≤ (i 1).val ∧ (i 1).val < win0_11.index ⟨(i 0).val / 8, ht⟩ (1 : Fin 3) * 325 + 325; omega
  | ⟨2, _⟩ => show win0_11.index ⟨(i 0).val / 8, ht⟩ (2 : Fin 3) * 32 ≤ (i 2).val ∧ (i 2).val < win0_11.index ⟨(i 0).val / 8, ht⟩ (2 : Fin 3) * 32 + 32; omega

/-! ## The output arrays after the region -/

theorem final8 (c : Dev nD) :
    (dats m 0 c).arrAt 8 cfg0.N = attn3 (V m c main_v0) (V m c main_v1) (V m c main_v2) :=
  (dats m 0 c).arrAt_eq_of_cover 8 _ (fun t _ => flushed8_eq m c t) cover8

theorem final9 (c : Dev nD)
    (H1 : ∀ i, IsReal (V m c main_v1 i)) (H3 : ∀ i, IsReal (V m c main_v3 i))
    (H6 : ∀ i, IsReal (V m c main_arg6 i)) (H7 : ∀ i, IsReal (V m c main_arg7 i))
    (H0 : ∀ i, vfCol m c i + epsC ≠ 0) :
    (dats m 0 c).arrAt 9 cfg0.N
      = attn3 (V m c main_v1) (flow3 (V m c main_arg6) (V m c main_arg7) (V m c main_v3)) (V m c main_v2) :=
  (dats m 0 c).arrAt_eq_of_cover 9 _ (fun t _ => flushed9_eq m c t H1 H3 H6 H7 H0) cover9

theorem final10 (c : Dev nD) :
    (dats m 0 c).arrAt 10 cfg0.N = attn3 (V m c main_v4) (V m c main_v0) (V m c main_v5) :=
  (dats m 0 c).arrAt_eq_of_cover 10 _ (fun t _ => flushed10_eq m c t) cover10

theorem final11 (c : Dev nD) :
    (dats m 0 c).arrAt 11 cfg0.N = attn3 (V m c main_v3) (V m c main_v4) (V m c main_v5) :=
  (dats m 0 c).arrAt_eq_of_cover 11 _ (fun t _ => flushed11_eq m c t) cover11

/-! ## The reshapes before the region: each flattened array is the argument, reshaped -/

theorem V_v0 (c : Dev nD) :
    V m c main_v0 = shapeCast S384x325x32 (m ((c : Thread nD τ).loc main_arg0)) shapeCasts_S4x8x12x325x32_S384x325x32 := by
  show StableHlo.after hostOps0 (fun b => m (c, b)) (Proc.devRef .tc main_v0) = _
  after_results
  rfl
theorem V_v1 (c : Dev nD) :
    V m c main_v1 = shapeCast S384x325x32 (m ((c : Thread nD τ).loc main_arg1)) shapeCasts_S4x8x12x325x32_S384x325x32 := by
  show StableHlo.after hostOps0 (fun b => m (c, b)) (Proc.devRef .tc main_v1) = _
  after_results
  rfl
theorem V_v2 (c : Dev nD) :
    V m c main_v2 = shapeCast S384x325x32 (m ((c : Thread nD τ).loc main_arg2)) shapeCasts_S4x8x12x325x32_S384x325x32 := by
  show StableHlo.after hostOps0 (fun b => m (c, b)) (Proc.devRef .tc main_v2) = _
  after_results
  rfl
theorem V_v3 (c : Dev nD) :
    V m c main_v3 = shapeCast S384x325x32 (m ((c : Thread nD τ).loc main_arg3)) shapeCasts_S4x8x12x325x32_S384x325x32 := by
  show StableHlo.after hostOps0 (fun b => m (c, b)) (Proc.devRef .tc main_v3) = _
  after_results
  rfl
theorem V_v4 (c : Dev nD) :
    V m c main_v4 = shapeCast S384x325x32 (m ((c : Thread nD τ).loc main_arg4)) shapeCasts_S4x8x12x325x32_S384x325x32 := by
  show StableHlo.after hostOps0 (fun b => m (c, b)) (Proc.devRef .tc main_v4) = _
  after_results
  rfl
theorem V_v5 (c : Dev nD) :
    V m c main_v5 = shapeCast S384x325x32 (m ((c : Thread nD τ).loc main_arg5)) shapeCasts_S4x8x12x325x32_S384x325x32 := by
  show StableHlo.after hostOps0 (fun b => m (c, b)) (Proc.devRef .tc main_v5) = _
  after_results
  rfl

/-! ## The reshapes after the region: each result is an output array, reshaped back -/

theorem tail7 (c : Dev nD) :
    Pipeline.afterTail₀ cfgs (dats m) 0 (V0 m) [hostOps1] c main_v7
      = shapeCast S4x8x12x325x32 ((dats m 0 c).arrAt 8 cfg0.N) shapeCasts_S384x325x32_S4x8x12x325x32 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = (dats m 0 c).arrAt 8 cfg0.N := Pipeline.withArrays_arr spec0 launch0.win.arr_inj c _ _ 8
  rw [e]
  rfl
theorem tail8 (c : Dev nD) :
    Pipeline.afterTail₀ cfgs (dats m) 0 (V0 m) [hostOps1] c main_v8
      = shapeCast S4x8x12x325x32 ((dats m 0 c).arrAt 9 cfg0.N) shapeCasts_S384x325x32_S4x8x12x325x32 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6_1)
      = (dats m 0 c).arrAt 9 cfg0.N := Pipeline.withArrays_arr spec0 launch0.win.arr_inj c _ _ 9
  rw [e]
  rfl
theorem tail9 (c : Dev nD) :
    Pipeline.afterTail₀ cfgs (dats m) 0 (V0 m) [hostOps1] c main_v9
      = shapeCast S4x8x12x325x32 ((dats m 0 c).arrAt 10 cfg0.N) shapeCasts_S384x325x32_S4x8x12x325x32 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v6_2)
      = (dats m 0 c).arrAt 10 cfg0.N := Pipeline.withArrays_arr spec0 launch0.win.arr_inj c _ _ 10
  rw [e]
  rfl
theorem tail10 (c : Dev nD) :
    Pipeline.afterTail₀ cfgs (dats m) 0 (V0 m) [hostOps1] c main_v10
      = shapeCast S4x8x12x325x32 ((dats m 0 c).arrAt 11 cfg0.N) shapeCasts_S384x325x32_S4x8x12x325x32 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v6_3)
      = (dats m 0 c).arrAt 11 cfg0.N := Pipeline.withArrays_arr spec0 launch0.win.arr_inj c _ _ 11
  rw [e]
  rfl

/-! ## The four results as functions of the arguments -/

/-- Reshaping the attention of the reshaped arguments back gives the attention of the arguments. -/
theorem unflat_attn3_flat (q k v : S5.Idx → EReal) :
    shapeCast S4x8x12x325x32
        (attn3 (shapeCast S384x325x32 q shapeCasts_S4x8x12x325x32_S384x325x32)
          (shapeCast S384x325x32 k shapeCasts_S4x8x12x325x32_S384x325x32)
          (shapeCast S384x325x32 v shapeCasts_S4x8x12x325x32_S384x325x32))
        shapeCasts_S384x325x32_S4x8x12x325x32
      = attn5 q k v := by
  rw [attn3_flat q k v shapeCasts_S4x8x12x325x32_S384x325x32]
  exact shapeCast_shapeCast (attn5 q k v) shapeCasts_S4x8x12x325x32_S384x325x32 shapeCasts_S384x325x32_S4x8x12x325x32

theorem res7 (c : Dev nD) :
    Pipeline.afterTail₀ cfgs (dats m) 0 (V0 m) [hostOps1] c main_v7
      = attn5 (m ((c : Thread nD τ).loc main_arg0)) (m ((c : Thread nD τ).loc main_arg1)) (m ((c : Thread nD τ).loc main_arg2)) := by
  rw [tail7, final8, V_v0, V_v1, V_v2]
  exact unflat_attn3_flat _ _ _

theorem res9 (c : Dev nD) :
    Pipeline.afterTail₀ cfgs (dats m) 0 (V0 m) [hostOps1] c main_v9
      = attn5 (m ((c : Thread nD τ).loc main_arg4)) (m ((c : Thread nD τ).loc main_arg0)) (m ((c : Thread nD τ).loc main_arg5)) := by
  rw [tail9, final10, V_v4, V_v0, V_v5]
  exact unflat_attn3_flat _ _ _

theorem res10 (c : Dev nD) :
    Pipeline.afterTail₀ cfgs (dats m) 0 (V0 m) [hostOps1] c main_v10
      = attn5 (m ((c : Thread nD τ).loc main_arg3)) (m ((c : Thread nD τ).loc main_arg4)) (m ((c : Thread nD τ).loc main_arg5)) := by
  rw [tail10, final11, V_v3, V_v4, V_v5]
  exact unflat_attn3_flat _ _ _

/-- The second result, where the operands of the split products are real and the divisor is nonzero. -/
theorem res8 (c : Dev nD)
    (h1 : ∀ i, IsReal (m ((c : Thread nD τ).loc main_arg1) i)) (h3 : ∀ i, IsReal (m ((c : Thread nD τ).loc main_arg3) i))
    (h6 : ∀ i, IsReal (m ((c : Thread nD τ).loc main_arg6) i)) (h7 : ∀ i, IsReal (m ((c : Thread nD τ).loc main_arg7) i))
    (h0 : ∀ i, vfArg m c i + epsC ≠ 0) :
    Pipeline.afterTail₀ cfgs (dats m) 0 (V0 m) [hostOps1] c main_v8
      = attn5 (m ((c : Thread nD τ).loc main_arg1))
          (flow5 (m ((c : Thread nD τ).loc main_arg6)) (m ((c : Thread nD τ).loc main_arg7)) (m ((c : Thread nD τ).loc main_arg3)))
          (m ((c : Thread nD τ).loc main_arg2)) := by
  have H1 : ∀ i, IsReal (V m c main_v1 i) := by
    rw [V_v1]; exact isReal_cast _ _ h1
  have H3 : ∀ i, IsReal (V m c main_v3 i) := by
    rw [V_v3]; exact isReal_cast _ _ h3
  have H6 : ∀ i, IsReal (V m c main_arg6 i) := by
    rw [V_main_arg6]; exact h6
  have H7 : ∀ i, IsReal (V m c main_arg7 i) := by
    rw [V_main_arg7]; exact h7
  have e7 : vfCol m c = vfArg m c := V_main_arg7 m c
  have H0 : ∀ i, vfCol m c i + epsC ≠ 0 := fun i => by rw [e7]; exact h0 i
  rw [tail8, final9 m c H1 H3 H6 H7 H0, V_v1, V_v2, V_v3, V_main_arg6, V_main_arg7,
    flow3_flat _ _ _ shapeCasts_S4x8x12x325x32_S384x325x32]
  exact unflat_attn3_flat _ _ _

/-! ## The kernel's run, read -/

/-- The finiteness facts the second result needs, per device. -/
def Fin8 (c : Dev nD) : Prop :=
  (∀ i, IsReal (m ((c : Thread nD τ).loc main_arg1) i)) ∧ (∀ i, IsReal (m ((c : Thread nD τ).loc main_arg3) i))
    ∧ (∀ i, IsReal (m ((c : Thread nD τ).loc main_arg6) i)) ∧ (∀ i, IsReal (m ((c : Thread nD τ).loc main_arg7) i))
    ∧ (∀ i, vfArg m c i + epsC ≠ 0)

/-- Every weakly fair execution of the kernel's program ends with its four results at the attention arrays of the
    arguments and the arguments unchanged. -/
theorem run (hf : ∀ c : Dev nD, Fin8 m c) :
    θ_run defs (onTc (τ := τ) (main (F := Ideal))) ⟨m, fun _ => 0, ρ⟩ fun r => ∀ c : Dev nD,
      r.2.mem ((c.tc : Thread nD τ).loc main_v7) = attn5 (m ((c.tc : Thread nD τ).loc main_arg0)) (m ((c.tc : Thread nD τ).loc main_arg1)) (m ((c.tc : Thread nD τ).loc main_arg2))
      ∧ r.2.mem ((c.tc : Thread nD τ).loc main_v8) = attn5 (m ((c.tc : Thread nD τ).loc main_arg1)) (flow5 (m ((c.tc : Thread nD τ).loc main_arg6)) (m ((c.tc : Thread nD τ).loc main_arg7)) (m ((c.tc : Thread nD τ).loc main_arg3))) (m ((c.tc : Thread nD τ).loc main_arg2))
      ∧ r.2.mem ((c.tc : Thread nD τ).loc main_v9) = attn5 (m ((c.tc : Thread nD τ).loc main_arg4)) (m ((c.tc : Thread nD τ).loc main_arg0)) (m ((c.tc : Thread nD τ).loc main_arg5))
      ∧ r.2.mem ((c.tc : Thread nD τ).loc main_v10) = attn5 (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      ((h c).2 main_v7 (Pipeline.mem_restRefs_of main_v7 (by decide) (by decide))).trans (res7 m c),
      ((h c).2 main_v8 (Pipeline.mem_restRefs_of main_v8 (by decide) (by decide))).trans
        (res8 m c (hf c).1 (hf c).2.1 (hf c).2.2.1 (hf c).2.2.2.1 (hf c).2.2.2.2),
      ((h c).2 main_v9 (Pipeline.mem_restRefs_of main_v9 (by decide) (by decide))).trans (res9 m c),
      ((h c).2 main_v10 (Pipeline.mem_restRefs_of main_v10 (by decide) (by decide))).trans (res10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelArrays

end
-- ==== Proof.lean ====
/-
  Four softmax-attention blocks over arrays [4,8,12,325,32], computed by one pipelined kernel over the batch
  axis flattened to 384 entries (eight per grid point), against the plain jnp reference.

  Over the extended reals both programs compute, for each batch entry, query row n and feature d,
      ∑ m, (exp (s m * c - max) / ∑ m', exp (s m' * c - max)) * v m d,    s m = ∑ e, q n e * k m e,
  with c the shared f32 word for 1/√32 and the maximum folded from −∞ (Proof/Spec.lean).  The format changes
  of the kernel are the identity there, its matrix products and lane reductions are the same sums and folds
  as the host's, and a different tiling or order of a sum changes nothing.

  The second result takes for its keys the flow array kj * (x - x*x / (vfp + ε)).  The kernel splits both
  factors of that product of scores into a leading part and a residual x - x and adds three products.  A
  residual is 0 exactly when x is a real number, so the three-term sum is the plain product when the
  operands are real: this is where the precondition is used — the inputs are finite, and the divisor
  vfp + ε is nonzero, which makes the flow array real (Spec.flow_isReal, Spec.comp_scores).

  The kernel side: one grid point's four stored blocks at an index (Proof/KernelFlow.lean,
  Proof/KernelBlock.lean), the 48 blocks as whole arrays and the reshapes around the region
  (Proof/Flat.lean, Proof/KernelArrays.lean).  The reference side: its run read one operation at a time
  (Proof/RefValue.lean).  What the precondition gives: Proof/PreFacts.lean.
-/
import proofs.«406247_j6803228197062_3_alg».proof.Defs
import proofs.«406247_j6803228197062_3_alg».proof.Proof.Gen.Kernel
import proofs.«406247_j6803228197062_3_alg».proof.Proof.Gen.Kernel.Skeleton
import proofs.«406247_j6803228197062_3_alg».proof.Proof.Gen.Kernel.Launch
import proofs.«406247_j6803228197062_3_alg».proof.Proof.Gen.Kernel.Points
import proofs.«406247_j6803228197062_3_alg».proof.Proof.Gen.Kernel.Frame
import proofs.«406247_j6803228197062_3_alg».proof.Proof.Gen.KernelIdeal
import proofs.«406247_j6803228197062_3_alg».proof.Proof.Gen.KernelIdeal.Skeleton
import proofs.«406247_j6803228197062_3_alg».proof.Proof.Gen.KernelIdeal.Launch
import proofs.«406247_j6803228197062_3_alg».proof.Proof.Gen.KernelIdeal.Points
import proofs.«406247_j6803228197062_3_alg».proof.Proof.Gen.KernelIdeal.Frame
import proofs.«406247_j6803228197062_3_alg».proof.Proof.Gen.ReferenceIdeal
import proofs.«406247_j6803228197062_3_alg».proof.Proof.Gen.Pre_finite_inputs
import proofs.«406247_j6803228197062_3_alg».proof.Proof.Gen.ReferenceIdeal.Run
import proofs.«406247_j6803228197062_3_alg».proof.Proof.Gen.ReferenceIdeal.Read
import proofs.«406247_j6803228197062_3_alg».proof.Proof.Spec
import proofs.«406247_j6803228197062_3_alg».proof.Proof.PreFacts
import proofs.«406247_j6803228197062_3_alg».proof.Proof.RefValue
import proofs.«406247_j6803228197062_3_alg».proof.Proof.KernelArrays
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the four results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The two ledger entries: widening a narrowed block back is the identity on extended reals. -/
theorem preserves : Cert.preserves_Kernel_KernelIdeal :=
  ⟨IdealRules.truncf_extf.statement Cert.KernelIdeal.S8x325x32 .f32 .bf16,
   IdealRules.truncf_extf.statement Cert.KernelIdeal.S8x325x32 .f32 .bf16⟩

/-- Both programs end at the attention arrays of the (agreeing) arguments. -/
theorem algebraic : Cert.algebraic_KernelIdeal_ReferenceIdeal := by
  intro m g m' g' hpre hagree
  have hf : ∀ c : Dev Cert.KernelIdeal.nD, Cert.KernelArrays.Fin8 m c := fun c => by
    obtain ⟨h1, h3, h6, h7, h0⟩ := Cert.PreFacts.facts_of_pre _ _ _ _ _ _ _ _ (hpre c)
    exact ⟨h1, h3, h6, h7, h0⟩
  refine ⟨_, _, _, _, Cert.KernelArrays.run m g hf, ?_⟩
  refine (θ_run Cert.ReferenceIdeal.defs _ _).mono (fun _ h c => ?_)
    (Cert.ReferenceIdeal.Value.run (F := Ideal) m' g')
  obtain ⟨a0, a1, a2, a3, a4, a5, a6, a7⟩ := hagree c
  obtain ⟨r0, r1, r2, r3, k0, k1, k2, k3, k4, k5, k6, k7⟩ := h c
  refine ⟨?_, ?_, ?_, ?_, k0, k1, k2, k3, k4, k5, k6, k7⟩
  · rw [r0, Cert.ReferenceIdeal.Read.val_main_v24_eq, Cert.RefValue.ref_ff, a0, a1, a2]
  · rw [r1, Cert.ReferenceIdeal.Read.val_main_v39_eq, Cert.RefValue.ref_fs, a1, a2, a3, a6, a7]
  · rw [r2, Cert.ReferenceIdeal.Read.val_main_v54_eq, Cert.RefValue.ref_sf, a0, a4, a5]
  · rw [r3, Cert.ReferenceIdeal.Read.val_main_v69_eq, Cert.RefValue.ref_ss, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
